-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32768x1024 .f32) (main_arg1 : FVec F S512x512 .f32) (main_arg2 : FVec F S512 .f32) (main_arg3 : FVec F S512x1024 .f32) (main_arg4 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_v13 main_v16
-- ==== Kernel.lean ====
abbrev S32768x1024 : Shape := ⟨2, ![32768, 1024]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S32768x512x2 : Shape := ⟨3, ![32768, 512, 2]⟩
abbrev S32768x512x1 : Shape := ⟨3, ![32768, 512, 1]⟩
abbrev S32768x512 : Shape := ⟨2, ![32768, 512]⟩
abbrev S32768x1 : Shape := ⟨2, ![32768, 1]⟩
abbrev S1024x512 : Shape := ⟨2, ![1024, 512]⟩
abbrev S1024x1 : Shape := ⟨2, ![1024, 1]⟩
abbrev S1x512 : Shape := ⟨2, ![1, 512]⟩
abbrev S1024x1024 : Shape := ⟨2, ![1024, 1024]⟩
abbrev S1x1024 : Shape := ⟨2, ![1, 1024]⟩
abbrev S32768 : Shape := ⟨1, ![32768]⟩

abbrev nBuf : Space → Nat
  | .hbm => 19
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S32768x512x2, .f32⟩
  | .hbm, ⟨6, _⟩ => ⟨S32768x512x1, .f32⟩
  | .hbm, ⟨7, _⟩ => ⟨S32768x512, .f32⟩
  | .hbm, ⟨8, _⟩ => ⟨S32768x512x1, .f32⟩
  | .hbm, ⟨9, _⟩ => ⟨S32768x512, .f32⟩
  | .hbm, ⟨10, _⟩ => ⟨S512x512, .bf16⟩
  | .hbm, ⟨11, _⟩ => ⟨S512x1024, .bf16⟩
  | .hbm, ⟨12, _⟩ => ⟨S32768x512, .f32⟩
  | .hbm, ⟨13, _⟩ => ⟨S32768x1, .f32⟩
  | .hbm, ⟨14, _⟩ => ⟨S32768x512x1, .f32⟩
  | .hbm, ⟨15, _⟩ => ⟨S32768x512x1, .f32⟩
  | .hbm, ⟨16, _⟩ => ⟨S32768x512x2, .f32⟩
  | .hbm, ⟨17, _⟩ => ⟨S32768x1024, .f32⟩
  | .hbm, ⟨18, _⟩ => ⟨S32768, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512, .f32⟩
  | .local _ .vmem, ⟨6, _⟩ => ⟨S512x1024, .bf16⟩
  | .local _ .vmem, ⟨7, _⟩ => ⟨S1024, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32768x1024_S32768x512x2 : S32768x1024.ShapeCasts S32768x512x2
  slices_S32768x512x2_S32768x512x1_0_0_0 : S32768x512x2.Slices ![0, 0, 0] S32768x512x1
  shapeCasts_S32768x512x1_S32768x512 : S32768x512x1.ShapeCasts S32768x512
  slices_S32768x512x2_S32768x512x1_0_0_1 : S32768x512x2.Slices ![0, 0, 1] S32768x512x1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  slices_S1024x1024_o0_0_S1024x512 : S1024x1024.Slices ![0, 0] S1024x512
  slices_S1024x1024_o0_512_S1024x512 : S1024x1024.Slices ![0, 512] S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  bcast_S32768x512_S32768x512x1_0_1 : S32768x512.BroadcastsInDim S32768x512x1 (![0, 1] : Fin 2 → Fin S32768x512x1.rank)
  concatenates_S32768x512x1_S32768x512x1_S32768x512x2_d2 : Shape.Concatenates [S32768x512x1, S32768x512x1] S32768x512x2 2
  shapeCasts_S32768x512x2_S32768x1024 : S32768x512x2.ShapeCasts S32768x1024
  shapeCasts_S32768x1_S32768 : S32768x1.ShapeCasts S32768
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S32768x1.size a
  hwx0_7 : ∀ i : grid0.Coords, EltTy.bits .f32 = 32 ∨ (Rect.block (s := S32768x1) S1024x1.size (cc0_transform_7 i) (hinb0_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩
abbrev S512x1 : Shape := ⟨2, ![512, 1]⟩
abbrev S32768x512 : Shape := ⟨2, ![32768, 512]⟩
abbrev S1x512 : Shape := ⟨2, ![1, 512]⟩
abbrev S1x1024 : Shape := ⟨2, ![1, 1024]⟩
abbrev S32768 : Shape := ⟨1, ![32768]⟩

abbrev nBuf : Space → Nat
  | .hbm => 89
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S32768x512, .f32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x512, .f32⟩
  | .hbm, ⟨60, _⟩ => ⟨S32768x512, .f32⟩
  | .hbm, ⟨61, _⟩ => ⟨S_, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S_, .f32⟩
  | .hbm, ⟨68, _⟩ => ⟨S32768, .f32⟩
  | .hbm, ⟨69, _⟩ => ⟨S_, .f32⟩
  | .hbm, ⟨70, _⟩ => ⟨S32768x1024, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S32768x1024, .f32⟩
  | .hbm, ⟨80, _⟩ => ⟨S_, .i32⟩
  | .hbm, ⟨81, _⟩ => ⟨S512, .i32⟩
  | .hbm, ⟨82, _⟩ => ⟨S512, .i1⟩
  | .hbm, ⟨83, _⟩ => ⟨S_, .i32⟩
  | .hbm, ⟨84, _⟩ => ⟨S512, .i32⟩
  | .hbm, ⟨85, _⟩ => ⟨S512, .i32⟩
  | .hbm, ⟨86, _⟩ => ⟨S512, .i32⟩
  | .hbm, ⟨87, _⟩ => ⟨S512x1, .i32⟩
  | .hbm, ⟨88, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x512_0_0 : S32768x1024.Slices ![0, 0] S32768x512
  slices_S32768x1024_S32768x512_0_512 : S32768x1024.Slices ![0, 512] S32768x512
  reducesTo_S32768x512_S32768_d1 : S32768x512.ReducesTo [1] S32768
  h_S_ : 0 < S_.numel
  bcast_S_S32768x1024 : S_.BroadcastsInDim S32768x1024 (![] : Fin 0 → Fin S32768x1024.rank)
  gather_S32768x1024_S512x1_S32768x512_0_1_n_n_1_1_327681_wf : GatherDims.WF S32768x1024 S512x1 S32768x512 [0] [1] [] [1] [] 1 ![32768, 1]
  dot_S32768x512_S512x512_S32768x512_1_0_0_1_n_n_wf : DotDims.WF S32768x512 S512x512 S32768x512 [1] [0] [0] [1] [] []
  dot_S32768x512_S512x1024_S32768x1024_1_0_0_1_n_n_wf : DotDims.WF S32768x512 S512x1024 S32768x1024 [1] [0] [0] [1] [] []
  scatter_S32768x1024_S512x1_S32768x512_0_1_1_1_wf : ScatterDims.WF S32768x1024 S512x1 S32768x512 [0] [1] [1] 1

variable [Facts₀]

def gather_S32768x1024_S512x1_S32768x512_0_1_n_n_1_1_327681 : GatherDims S32768x1024 S512x1 S32768x512 where
  offsetDims := [0]
  collapsedSliceDims := [1]
  operandBatchingDims := []
  startIndicesBatchingDims := []
  startIndexMap := [1]
  indexVectorDim := 1
  sliceSizes := ![32768, 1]
  wf := gather_S32768x1024_S512x1_S32768x512_0_1_n_n_1_1_327681_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def scatter_S32768x1024_S512x1_S32768x512_0_1_1_1 : ScatterDims S32768x1024 S512x1 S32768x512 where
  updateWindowDims := [0]
  insertedWindowDims := [1]
  scatterDimsToOperandDims := [1]
  indexVectorDim := 1
  wf := scatter_S32768x1024_S512x1_S32768x512_0_1_1_1_wf

class Facts : Prop extends Facts₀ where

variable [Facts]
-- ==== Proof.Spec.lean ====
/-
  The affine coupling layer with an alternating mask, as functions on the extended reals.

  A row of the input has 1024 features. The even features (the identity half) pass through unchanged and feed a two-layer
  network: hidden k = max (sum over l of id l * W1 l k + b1 k, 0), parameter n = sum over k of hidden k * W2 k n + b2 n.
  The first 512 parameters give the scale of the transform, scale j = logistic (parameter j + 2) + eps, the last 512 the
  shift. The odd features (the transformed half) become tr j * scale j + parameter (512 + j); the log-determinant of the
  row is the sum over j of log (scale j). The output row interleaves the two halves again: feature 2 j is the input's,
  feature 2 j + 1 the transformed one.

  Everything is stated for ONE row given as two functions of the feature index, so that a row of a block and a row of the
  whole array are read by the same definitions. The float literals stay bit patterns: both programs print the same words.
-/
import Idealize.ShloMosaic.PureOps.Ideal
import Idealize.ShloMosaic.Lib.ValueIdx

noncomputable section

namespace Cert.Coupling

open Idealize.ShloMosaic Idealize.ShloMosaic.ValueIdx

/-- The three float literals of the layer, as the extended reals their f32 patterns denote: 0, 2 and the scale floor. -/
abbrev zero : EReal := Ideal.ofBits .f32 0x00000000#32
abbrev two : EReal := Ideal.ofBits .f32 0x40000000#32
abbrev eps : EReal := Ideal.ofBits .f32 0x3A83126F#32

/-- Feature 2 l of a row: where identity feature l sits. -/
abbrev evenCol (l : Fin 512) : Fin 1024 := ⟨2 * l.val, by have := l.isLt; omega⟩
/-- Feature 2 j + 1 of a row: where transformed feature j sits. -/
abbrev oddCol (j : Fin 512) : Fin 1024 := ⟨2 * j.val + 1, by have := j.isLt; omega⟩
/-- Parameter j, a scale parameter. -/
abbrev loCol (j : Fin 512) : Fin 1024 := ⟨j.val, by have := j.isLt; omega⟩
/-- Parameter 512 + j, a shift parameter. -/
abbrev hiCol (j : Fin 512) : Fin 1024 := ⟨512 + j.val, by have := j.isLt; omega⟩
/-- Half of a feature index: which identity or transformed feature sits there. -/
abbrev halfCol (c : Fin 1024) : Fin 512 := ⟨c.val / 2, by have := c.isLt; omega⟩

variable (W1 : (⟨2, ![512, 512]⟩ : Shape).Idx → EReal) (b1 : (⟨1, ![512]⟩ : Shape).Idx → EReal)
  (W2 : (⟨2, ![512, 1024]⟩ : Shape).Idx → EReal) (b2 : (⟨1, ![1024]⟩ : Shape).Idx → EReal)

/-- The hidden layer of one row: the rectified affine image of its identity half. -/
def hiddenRow (id : Fin 512 → EReal) (k : Fin 512) : EReal :=
  max ((∑ l : Fin 512, id l * W1 (ix2 l k)) + b1 (ix1 k)) zero

/-- The 1024 parameters of one row: the affine image of its hidden layer. -/
def paramsRow (id : Fin 512 → EReal) (n : Fin 1024) : EReal :=
  (∑ k : Fin 512, hiddenRow W1 b1 id k * W2 (ix2 k n)) + b2 (ix1 n)

/-- The scale of transformed feature j: a logistic of its scale parameter moved by 2, floored by eps. -/
def scaleRow (id : Fin 512 → EReal) (j : Fin 512) : EReal :=
  Ideal.logistic (paramsRow W1 b1 W2 b2 id (loCol j) + two) + eps

/-- Transformed feature j of the output row. -/
def outTrRow (id tr : Fin 512 → EReal) (j : Fin 512) : EReal :=
  tr j * scaleRow W1 b1 W2 b2 id j + paramsRow W1 b1 W2 b2 id (hiCol j)

/-- The log-determinant of the row's transform. -/
def ladRow (id : Fin 512 → EReal) : EReal :=
  ∑ j : Fin 512, Ideal.log (scaleRow W1 b1 W2 b2 id j)

variable (X : (⟨2, ![32768, 1024]⟩ : Shape).Idx → EReal)

/-- The identity half of row r of the input: its even features. -/
def idRow (r : Fin 32768) : Fin 512 → EReal := fun l => X (ix2 r (evenCol l))
/-- The transformed half of row r of the input: its odd features. -/
def trRow (r : Fin 32768) : Fin 512 → EReal := fun j => X (ix2 r (oddCol j))

/-- The transformed halves of all rows, as a [32768, 512] array. -/
def outTr : (⟨2, ![32768, 512]⟩ : Shape).Idx → EReal := fun i =>
  outTrRow W1 b1 W2 b2 (idRow X (i 0)) (trRow X (i 0)) (i 1)

/-- THE FIRST RESULT: the input with its odd features transformed. -/
def out : (⟨2, ![32768, 1024]⟩ : Shape).Idx → EReal := fun i =>
  if (i 1).val % 2 = 0 then X i else outTrRow W1 b1 W2 b2 (idRow X (i 0)) (trRow X (i 0)) (halfCol (i 1))

/-- THE SECOND RESULT: the log-determinant of every row. -/
def lad : (⟨1, ![32768]⟩ : Shape).Idx → EReal := fun i => ladRow W1 b1 W2 b2 (idRow X (i 0))

end Cert.Coupling

end
-- ==== Proof.KernelRows.lean ====
/-
  The kernel body's arithmetic, read one entry at a time on the extended reals.

  The body works on a block of 1024 rows. Both of its matrix products go into a zero accumulator, so at an entry each is the
  plain sum over the 512 contraction indices; the changes of float format are the identity; the bias rows are broadcast down
  the block. Hence every entry of row p of what the body stores depends on row p of the two input blocks only, and is what
  the specification's one-row functions give for that row.
-/
import proofs.«112335_j91319594647687_1_alg».proof.Proof.Gen.KernelIdeal.Skeleton
import proofs.«112335_j91319594647687_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Coupling

/-! ## The two matrix products at an entry -/

theorem lhsA_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhsA_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhsA_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhsA_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The first product, [1024, 512] by [512, 512] into zeros, at (p, k): the sum over l of A (p, l) * B (l, k). -/
theorem matmulA_apply (A : FVec Ideal S1024x512 .bf16) (B : FVec Ideal S512x512 .bf16) (p : Fin 1024) (k : Fin 512) :
    matmul dot_S1024x512_S512x512_S1024x512_1_0_0_1_n_n none A B (constant (F := Ideal) S1024x512 .f32 0x00000000#32) (ix2 p k)
      = ∑ l : Fin 512, A (ix2 p l) * B (ix2 l k) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun l _ => ?_
  have hk := ValueIdx.contrEquiv1_symm_val dot_S1024x512_S512x512_S1024x512_1_0_0_1_n_n 512 rfl rfl l
  have el : dot_S1024x512_S512x512_S1024x512_1_0_0_1_n_n.lhsIdx (ix2 p k) ((ValueIdx.contrEquiv1 dot_S1024x512_S512x512_S1024x512_1_0_0_1_n_n 512 rfl rfl).symm l) = ix2 p l := funext fun a => Fin.ext (by
    match a with
    | ⟨0, _⟩ => exact lhsA_0 _ _
    | ⟨1, _⟩ => exact (lhsA_1 _ _).trans hk)
  have er : dot_S1024x512_S512x512_S1024x512_1_0_0_1_n_n.rhsIdx (ix2 p k) ((ValueIdx.contrEquiv1 dot_S1024x512_S512x512_S1024x512_1_0_0_1_n_n 512 rfl rfl).symm l) = ix2 l k := funext fun a => Fin.ext (by
    match a with
    | ⟨0, _⟩ => exact (rhsA_0 _ _).trans hk
    | ⟨1, _⟩ => exact rhsA_1 _ _)
  rw [el, er]

theorem lhsB_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhsB_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhsB_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhsB_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The second product, [1024, 512] by [512, 1024] into zeros, at (p, n): the sum over k of A (p, k) * B (k, n). -/
theorem matmulB_apply (A : FVec Ideal S1024x512 .bf16) (B : FVec Ideal S512x1024 .bf16) (p : Fin 1024) (n : Fin 1024) :
    matmul dot_S1024x512_S512x1024_S1024x1024_1_0_0_1_n_n none A B (constant (F := Ideal) S1024x1024 .f32 0x00000000#32) (ix2 p n)
      = ∑ k : Fin 512, A (ix2 p k) * B (ix2 k n) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p n) ((ValueIdx.contrEquiv1 dot_S1024x512_S512x1024_S1024x1024_1_0_0_1_n_n 512 rfl rfl).symm k) = ix2 p k := funext fun a => Fin.ext (by
    match a with
    | ⟨0, _⟩ => exact lhsB_0 _ _
    | ⟨1, _⟩ => exact (lhsB_1 _ _).trans hk)
  have er : dot_S1024x512_S512x1024_S1024x1024_1_0_0_1_n_n.rhsIdx (ix2 p n) ((ValueIdx.contrEquiv1 dot_S1024x512_S512x1024_S1024x1024_1_0_0_1_n_n 512 rfl rfl).symm k) = ix2 k n := funext fun a => Fin.ext (by
    match a with
    | ⟨0, _⟩ => exact (rhsB_0 _ _).trans hk
    | ⟨1, _⟩ => exact rhsB_1 _ _)
  rw [el, er]

/-! ## The body's values at an entry -/

/-- The 1024 parameters the body computes for row p of the block, at (p, n). -/
theorem pay1_apply (v0 : Vec Ideal S1024x512 .f32) (v5 : Vec Ideal S512x512 .bf16) (v8 : Vec Ideal S512 .f32)
    (v15 : Vec Ideal S512x1024 .bf16) (v18 : Vec Ideal S1024 .f32) (p : Fin 1024) (n : Fin 1024) :
    k0_pay1 v0 v5 v8 v15 v18 (ix2 p n) = paramsRow v5 v8 v15 v18 (fun l => v0 (ix2 p l)) n := by
  unfold k0_pay1
  rw [addf_apply, matmulB_apply]
  unfold paramsRow hiddenRow
  rw [broadcastTo_1b_ab_apply, shapeCast_a_1a_apply]
  refine congrArg (· + v18 (ix1 n)) (Finset.sum_congr rfl fun k _ => ?_)
  rw [truncf_apply, maximumf_apply, addf_apply, matmulA_apply, broadcast_apply, broadcastTo_1b_ab_apply,
    shapeCast_a_1a_apply, shapeCast_self, shapeCast_self]
  simp only [truncf_apply, shapeCast_self]
  rfl

/-- The scale the body computes, at (p, j). -/
theorem pay2_apply (v0 : Vec Ideal S1024x512 .f32) (v5 : Vec Ideal S512x512 .bf16) (v8 : Vec Ideal S512 .f32)
    (v15 : Vec Ideal S512x1024 .bf16) (v18 : Vec Ideal S1024 .f32) (p : Fin 1024) (j : Fin 512) :
    k0_pay2 v0 v5 v8 v15 v18 (ix2 p j) = scaleRow v5 v8 v15 v18 (fun l => v0 (ix2 p l)) j := by
  unfold k0_pay2
  rw [addf_apply, broadcast_apply]
  show FloatOps.logistic (addf _ _ (ix2 p j)) + _ = _
  rw [addf_apply, broadcast_apply, ValueIdx.slice2_axis1_apply 0 _ _ p j (loCol j) (by show j.val = 0 + j.val; omega), pay1_apply]
  rfl

/-- What the body stores to the transformed output's block, at (p, j). -/
theorem pay3_apply (v0 v2 : Vec Ideal S1024x512 .f32) (v5 : Vec Ideal S512x512 .bf16) (v8 : Vec Ideal S512 .f32)
    (v15 : Vec Ideal S512x1024 .bf16) (v18 : Vec Ideal S1024 .f32) (p : Fin 1024) (j : Fin 512) :
    k0_pay3 v0 v2 v5 v8 v15 v18 (ix2 p j)
      = outTrRow v5 v8 v15 v18 (fun l => v0 (ix2 p l)) (fun l => v2 (ix2 p l)) j := by
  unfold k0_pay3
  rw [addf_apply, mulf_apply, shapeCast_self, pay2_apply,
    ValueIdx.slice2_axis1_apply 512 _ _ p j (hiCol j) (by show 512 + j.val = 512 + j.val; rfl), pay1_apply]
  rfl

/-- What the body stores to the log-determinant's block, at row p: a lane sum with no initial value left in it. -/
theorem pay4_apply (v0 : Vec Ideal S1024x512 .f32) (v5 : Vec Ideal S512x512 .bf16) (v8 : Vec Ideal S512 .f32)
    (v15 : Vec Ideal S512x1024 .bf16) (v18 : Vec Ideal S1024 .f32) (p : Fin 1024) (u : Fin 1) :
    k0_pay4 v0 v5 v8 v15 v18 (ix2 p u) = ladRow v5 v8 v15 v18 (fun l => v0 (ix2 p l)) := by
  unfold k0_pay4
  refine (shapeCast_apply _ _ (ix2 p u) (ix1 p) (by
    rw [Shape.rowMajor_val_one, Shape.rowMajor_val_two]
    show p.val = p.val * 1 + u.val
    have := u.isLt; omega)).trans ?_
  refine (Ideal.multiReduction_add_single (log (k0_pay2 v0 v5 v8 v15 v18)) 0x00000000#32 reduces_S1024x512_S1024
    (.inl rfl) rfl (ix1 p)).trans ?_
  show (∑ j : Fin 512, log (k0_pay2 v0 v5 v8 v15 v18) (reduces_S1024x512_S1024.lift (ix1 p) j)) = _
  unfold ladRow
  refine Finset.sum_congr rfl fun (j : Fin 512) _ => ?_
  have e : reduces_S1024x512_S1024.lift (ix1 p) j = (ix2 p j : S1024x512.Idx) := funext fun a => Fin.ext (by
    match a with
    | ⟨0, _⟩ => rfl
    | ⟨1, _⟩ => rfl)
  show FloatOps.log (k0_pay2 v0 v5 v8 v15 v18 (reduces_S1024x512_S1024.lift (ix1 p) j)) = _
  rw [e]
  exact congrArg Ideal.log (pay2_apply v0 v5 v8 v15 v18 p j)

end Cert.KernelIdeal.Rows

end
-- ==== Proof.KernelArrays.lean ====
/-
  From the blocks the grid points write back to the two arrays the region leaves.

  The grid has 32 points. Point t is handed rows 1024 t … 1024 t + 1023 of the identity half and of the transformed half,
  and the two weight matrices and two bias rows whole; it writes back rows 1024 t … 1024 t + 1023 of the transformed
  output and of the log-determinant column. By the row lemmas every row it writes is the specification's function of the
  same row of the inputs, so each written block is a block of ONE whole-array function, and the 32 blocks tile the arrays.
-/
import proofs.«112335_j91319594647687_1_alg».proof.Proof.Gen.KernelIdeal.Frame
import proofs.«112335_j91319594647687_1_alg».proof.Proof.KernelRows
import Idealize.ShloMosaic.Lib.Pipeline.Value

set_option maxRecDepth 16384

noncomputable section

namespace Cert.KernelIdeal.Arrays

open Cert.KernelIdeal Cert.KernelIdeal.Gen Cert.KernelIdeal.Rows Idealize.ShloMosaic Idealize.ShloMosaic.TcCoe
open Idealize.ShloMosaic.ValueIdx Idealize.SL.Sem Cert.Coupling
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The transformed output as one function of the arrays the region is handed: row by row the specification's. -/
def G6 (ID TR : S32768x512.Idx → EReal) (W1 : S512x512.Idx → EReal) (b1 : S512.Idx → EReal) (W2 : S512x1024.Idx → EReal)
    (b2 : S1024.Idx → EReal) : S32768x512.Idx → EReal :=
  fun i => outTrRow W1 b1 W2 b2 (fun l => ID (ix2 (i 0) l)) (fun l => TR (ix2 (i 0) l)) (i 1)

/-- The log-determinant column likewise. -/
def G7 (ID : S32768x512.Idx → EReal) (W1 : S512x512.Idx → EReal) (b1 : S512.Idx → EReal) (W2 : S512x1024.Idx → EReal)
    (b2 : S1024.Idx → EReal) : S32768x1.Idx → EReal :=
  fun i => ladRow W1 b1 W2 b2 (fun l => ID (ix2 (i 0) l))

/-- The printed index maps over the grid: the row-blocked windows are at block t on the row axis, the weights and biases
    at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A row of what the body stores to the transformed output is that row of `G6`, once the blocks are known to be the
    arrays' rows and the weights and biases the arrays themselves. -/
theorem pay3_G6 (x0 x1 : Vec Ideal S1024x512 .f32) (x2 : Vec Ideal S512x512 .bf16) (x3 : Vec Ideal S512 .f32)
    (x4 : Vec Ideal S512x1024 .bf16) (x5 : Vec Ideal S1024 .f32)
    (ID TR : S32768x512.Idx → EReal) (W1 : S512x512.Idx → EReal) (b1 : S512.Idx → EReal) (W2 : S512x1024.Idx → EReal)
    (b2 : S1024.Idx → EReal) (j : S1024x512.Idx) (i : S32768x512.Idx)
    (h0 : ∀ l : Fin 512, x0 (ix2 (j 0) l) = ID (ix2 (i 0) l)) (h1 : ∀ l : Fin 512, x1 (ix2 (j 0) l) = TR (ix2 (i 0) l))
    (hq : i 1 = j 1) (h2 : x2 = W1) (h3 : x3 = b1) (h4 : x4 = W2) (h5 : x5 = b2) :
    k0_pay3 x0 x1 x2 x3 x4 x5 j = G6 ID TR W1 b1 W2 b2 i := by
  subst h2 h3 h4 h5
  obtain ⟨p, q, rfl⟩ : ∃ (p : Fin 1024) (q : Fin 512), j = ix2 p q := ⟨j 0, j 1, eq_ix2 j⟩
  obtain ⟨r, s, rfl⟩ : ∃ (r : Fin 32768) (s : Fin 512), i = ix2 r s := ⟨i 0, i 1, eq_ix2 i⟩
  have hs : s = q := hq
  subst hs
  have h0' : (fun l : Fin 512 => x0 (ix2 p l)) = fun l => ID (ix2 r l) := funext h0
  have h1' : (fun l : Fin 512 => x1 (ix2 p l)) = fun l => TR (ix2 r l) := funext h1
  rw [pay3_apply, h0', h1']
  rfl

/-- What point t writes back to the transformed output is block t of `G6` of the arrays the region was handed. -/
theorem flushed6_eq (c : Dev nD) (t : Fin cfg0.N) :
    (dats m 0 c).flushed 6 t = ((cfg0.win 6).blk t).view.read (Elt Ideal)
      (G6 (V m c main_v2) (V m c main_v4) (V m c main_v5) (V m c main_arg2) (V m c main_v6) (V m c main_arg4)) := by
  show (cfg0.win 6).cut (grid0.coords t) ((dats m 0 c).after 6 t) = _
  rw [after0_6]
  unfold out0_6
  rw [View.canon_unit_zero hz2]
  simp only [View.ld_unit_zero (S := S1024x512) hz2, View.ld_unit_zero (S := S512x512) hz2, View.ld_unit_zero (S := S512) hz1,
    View.ld_unit_zero (S := S512x1024) hz2, View.ld_unit_zero (S := S1024) hz1]
  obtain ⟨e00, e01, e10, e11, e20, e21, e30, e40, e41, e50, e60, e61, e70, e71⟩ := idx_facts t
  funext j
  refine pay3_G6 _ _ _ _ _ _ _ _ _ _ _ _ j (((cfg0.win 6).blk t).view.emb j) ?_ ?_ ?_ ?_ ?_ ?_ ?_
  · intro l
    show V m c main_v2 (((cfg0.win 0).blk t).view.emb (ix2 (j 0) l)) = V m c main_v2 (ix2 (((cfg0.win 6).blk t).view.emb j 0) l)
    refine congrArg (V m c main_v2) (funext fun a => Fin.ext ?_)
    match a with
    | ⟨0, _⟩ => show win0_0.index t (0 : Fin 2) * 1024 + 1 * (j 0).val = win0_6.index t (0 : Fin 2) * 1024 + 1 * (j 0).val; omega
    | ⟨1, _⟩ => show win0_0.index t (1 : Fin 2) * 512 + 1 * l.val = l.val; omega
  · intro l
    show V m c main_v4 (((cfg0.win 1).blk t).view.emb (ix2 (j 0) l)) = V m c main_v4 (ix2 (((cfg0.win 6).blk t).view.emb j 0) l)
    refine congrArg (V m c main_v4) (funext fun a => Fin.ext ?_)
    match a with
    | ⟨0, _⟩ => show win0_1.index t (0 : Fin 2) * 1024 + 1 * (j 0).val = win0_6.index t (0 : Fin 2) * 1024 + 1 * (j 0).val; omega
    | ⟨1, _⟩ => show win0_1.index t (1 : Fin 2) * 512 + 1 * l.val = l.val; omega
  · refine Fin.ext ?_
    show win0_6.index t (1 : Fin 2) * 512 + 1 * (j 1).val = (j 1).val
    omega
  · funext y
    show V m c main_v5 (((cfg0.win 2).blk t).view.emb y) = V m c main_v5 y
    refine congrArg (V m c main_v5) (funext fun a => Fin.ext ?_)
    match a with
    | ⟨0, _⟩ => show win0_2.index t (0 : Fin 2) * 512 + 1 * (y 0).val = (y 0).val; omega
    | ⟨1, _⟩ => show win0_2.index t (1 : Fin 2) * 512 + 1 * (y 1).val = (y 1).val; omega
  · funext y
    show V m c main_arg2 (((cfg0.win 3).blk t).view.emb y) = V m c main_arg2 y
    refine congrArg (V m c main_arg2) (funext fun a => Fin.ext ?_)
    match a with
    | ⟨0, _⟩ => show win0_3.index t (0 : Fin 1) * 512 + 1 * (y 0).val = (y 0).val; omega
  · funext y
    show V m c main_v6 (((cfg0.win 4).blk t).view.emb y) = V m c main_v6 y
    refine congrArg (V m c main_v6) (funext fun a => Fin.ext ?_)
    match a with
    | ⟨0, _⟩ => show win0_4.index t (0 : Fin 2) * 512 + 1 * (y 0).val = (y 0).val; omega
    | ⟨1, _⟩ => show win0_4.index t (1 : Fin 2) * 1024 + 1 * (y 1).val = (y 1).val; omega
  · funext y
    show V m c main_arg4 (((cfg0.win 5).blk t).view.emb y) = V m c main_arg4 y
    refine congrArg (V m c main_arg4) (funext fun a => Fin.ext ?_)
    match a with
    | ⟨0, _⟩ => show win0_5.index t (0 : Fin 1) * 1024 + 1 * (y 0).val = (y 0).val; omega

/-- A row of what the body stores to the log-determinant column is that row of `G7`. -/
theorem pay4_G7 (x0 : Vec Ideal S1024x512 .f32) (x2 : Vec Ideal S512x512 .bf16) (x3 : Vec Ideal S512 .f32)
    (x4 : Vec Ideal S512x1024 .bf16) (x5 : Vec Ideal S1024 .f32)
    (ID : S32768x512.Idx → EReal) (W1 : S512x512.Idx → EReal) (b1 : S512.Idx → EReal) (W2 : S512x1024.Idx → EReal)
    (b2 : S1024.Idx → EReal) (j : S1024x1.Idx) (i : S32768x1.Idx)
    (h0 : ∀ l : Fin 512, x0 (ix2 (j 0) l) = ID (ix2 (i 0) l))
    (h2 : x2 = W1) (h3 : x3 = b1) (h4 : x4 = W2) (h5 : x5 = b2) :
    k0_pay4 x0 x2 x3 x4 x5 j = G7 ID W1 b1 W2 b2 i := by
  subst h2 h3 h4 h5
  obtain ⟨p, u, rfl⟩ : ∃ (p : Fin 1024) (u : Fin 1), j = ix2 p u := ⟨j 0, j 1, eq_ix2 j⟩
  obtain ⟨r, s, rfl⟩ : ∃ (r : Fin 32768) (s : Fin 1), i = ix2 r s := ⟨i 0, i 1, eq_ix2 i⟩
  have h0' : (fun l : Fin 512 => x0 (ix2 p l)) = fun l => ID (ix2 r l) := funext h0
  rw [pay4_apply, h0']
  rfl

/-- What point t writes back to the log-determinant column is block t of `G7`. -/
theorem flushed7_eq (c : Dev nD) (t : Fin cfg0.N) :
    (dats m 0 c).flushed 7 t = ((cfg0.win 7).blk t).view.read (Elt Ideal)
      (G7 (V m c main_v2) (V m c main_v5) (V m c main_arg2) (V m c main_v6) (V m c main_arg4)) := by
  show (cfg0.win 7).cut (grid0.coords t) ((dats m 0 c).after 7 t) = _
  rw [after0_7]
  unfold out0_7
  rw [View.canon_unit_zero hz2]
  simp only [View.ld_unit_zero (S := S1024x512) hz2, View.ld_unit_zero (S := S512x512) hz2, View.ld_unit_zero (S := S512) hz1,
    View.ld_unit_zero (S := S512x1024) hz2, View.ld_unit_zero (S := S1024) hz1]
  obtain ⟨e00, e01, e10, e11, e20, e21, e30, e40, e41, e50, e60, e61, e70, e71⟩ := idx_facts t
  funext j
  refine pay4_G7 _ _ _ _ _ _ _ _ _ _ j (((cfg0.win 7).blk t).view.emb j) ?_ ?_ ?_ ?_ ?_
  · intro l
    show V m c main_v2 (((cfg0.win 0).blk t).view.emb (ix2 (j 0) l)) = V m c main_v2 (ix2 (((cfg0.win 7).blk t).view.emb j 0) l)
    refine congrArg (V m c main_v2) (funext fun a => Fin.ext ?_)
    match a with
    | ⟨0, _⟩ => show win0_0.index t (0 : Fin 2) * 1024 + 1 * (j 0).val = win0_7.index t (0 : Fin 2) * 1024 + 1 * (j 0).val; omega
    | ⟨1, _⟩ => show win0_0.index t (1 : Fin 2) * 512 + 1 * l.val = l.val; omega
  · funext y
    show V m c main_v5 (((cfg0.win 2).blk t).view.emb y) = V m c main_v5 y
    refine congrArg (V m c main_v5) (funext fun a => Fin.ext ?_)
    match a with
    | ⟨0, _⟩ => show win0_2.index t (0 : Fin 2) * 512 + 1 * (y 0).val = (y 0).val; omega
    | ⟨1, _⟩ => show win0_2.index t (1 : Fin 2) * 512 + 1 * (y 1).val = (y 1).val; omega
  · funext y
    show V m c main_arg2 (((cfg0.win 3).blk t).view.emb y) = V m c main_arg2 y
    refine congrArg (V m c main_arg2) (funext fun a => Fin.ext ?_)
    match a with
    | ⟨0, _⟩ => show win0_3.index t (0 : Fin 1) * 512 + 1 * (y 0).val = (y 0).val; omega
  · funext y
    show V m c main_v6 (((cfg0.win 4).blk t).view.emb y) = V m c main_v6 y
    refine congrArg (V m c main_v6) (funext fun a => Fin.ext ?_)
    match a with
    | ⟨0, _⟩ => show win0_4.index t (0 : Fin 2) * 512 + 1 * (y 0).val = (y 0).val; omega
    | ⟨1, _⟩ => show win0_4.index t (1 : Fin 2) * 1024 + 1 * (y 1).val = (y 1).val; omega
  · funext y
    show V m c main_arg4 (((cfg0.win 5).blk t).view.emb y) = V m c main_arg4 y
    refine congrArg (V m c main_arg4) (funext fun a => Fin.ext ?_)
    match a with
    | ⟨0, _⟩ => show win0_5.index t (0 : Fin 1) * 1024 + 1 * (y 0).val = (y 0).val; omega

/-! ## The blocks tile the arrays -/

/-- An entry of the transformed output is in point t's block iff each coordinate is in the block's range on its axis. -/
theorem mem_blk6 (t : Fin cfg0.N) (i : S32768x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v7_0).slice (win0_6.rect t)).set ↔ _
  rw [View.set_slice_whole, Rect.mem_set_unit]
  exact Iff.rfl

theorem mem_blk7 (t : Fin cfg0.N) (i : S32768x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v7_1).slice (win0_7.rect t)).set ↔ _
  rw [View.set_slice_whole, Rect.mem_set_unit]
  exact Iff.rfl

/-- Row r lies in the block of point r / 1024. -/
theorem cover6 (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨e00, e01, e10, e11, e20, e21, e30, e40, e41, e50, e60, e61, e70, e71⟩ := idx_facts t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 512 ≤ (i 1).val ∧ (i 1).val < win0_6.index t (1 : Fin 2) * 512 + 512
    omega

theorem cover7 (i : S32768x1.Idx) :
    ∃ t : Fin cfg0.N, (cfg0.win 7).flush t = true ∧ i ∈ ((cfg0.win 7).blk t).view.set := by
  have hi0 : (i 0).val < 32768 := (i 0).isLt
  have hi1 : (i 1).val < 1 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨e00, e01, e10, e11, e20, e21, e30, e40, e41, e50, e60, e61, e70, e71⟩ := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 1 ≤ (i 1).val ∧ (i 1).val < win0_7.index t (1 : Fin 2) * 1 + 1
    omega

/-! ## The two arrays after the region -/

/-- THE TRANSFORMED OUTPUT after the region, as one function of the arrays the region was handed. -/
theorem final6 (c : Dev nD) : (dats m 0 c).arrAt 6 cfg0.N
    = G6 (V m c main_v2) (V m c main_v4) (V m c main_v5) (V m c main_arg2) (V m c main_v6) (V m c main_arg4) :=
  (dats m 0 c).arrAt_eq_of_cover 6 _ (fun t _ => flushed6_eq m c t) cover6

/-- THE LOG-DETERMINANT COLUMN after the region. -/
theorem final7 (c : Dev nD) : (dats m 0 c).arrAt 7 cfg0.N
    = G7 (V m c main_v2) (V m c main_v5) (V m c main_arg2) (V m c main_v6) (V m c main_arg4) :=
  (dats m 0 c).arrAt_eq_of_cover 7 _ (fun t _ => flushed7_eq m c t) cover7

end Cert.KernelIdeal.Arrays

end
-- ==== Proof.KernelEntry.lean ====
/-
  What the kernel's pallas_call finds in its operand arrays: the program's seven host operations before the call, read at
  an index.

  The input x : [32768, 1024] is reshaped to [32768, 512, 2]; in row-major order feature c of row r is entry
  (r, c / 2, c % 2). The slice [:, :, 0:1], reshaped to [32768, 512], is therefore x at the even features, and the slice
  [:, :, 1:2] is x at the odd features. The two weight matrices are converted to bf16, which on the extended reals is
  the identity.
-/
import proofs.«112335_j91319594647687_1_alg».proof.Proof.Gen.KernelIdeal.Frame
import proofs.«112335_j91319594647687_1_alg».proof.Proof.Spec
import Idealize.ShloMosaic.Lib.Pipeline.Value
import Idealize.ShloMosaic.Lib.ValueIdx
import Idealize.ShloMosaic.Lib.StableHlo.Run

noncomputable section

namespace Cert.KernelIdeal.HostValue

open Cert.KernelIdeal Cert.KernelIdeal.Gen Idealize.ShloMosaic Idealize.ShloMosaic.ValueIdx
open Idealize.ShloMosaic.TcCoe Idealize.ShloMosaic.StableHlo

/-! ## The layout chain at an index, over any element type -/

section Pure
variable {α : Type}

/-- Reshape to [32768, 512, 2], keep plane `p` of the last axis, reshape to [32768, 512]: entry (r, q) is the input at
    feature 2 q + p of row r. -/
theorem half_apply (p : Fin 2) (x : S32768x1024.Idx → α) (h0 : S32768x1024.ShapeCasts S32768x512x2)
    (h1 : S32768x512x2.Slices ![0, 0, p.val] S32768x512x1) (h2 : S32768x512x1.ShapeCasts S32768x512)
    (r : Fin 32768) (q : Fin 512) (k : Fin 1024) (hk : k.val = 2 * q.val + p.val) :
    shapeCast S32768x512 (extractStridedSlice S32768x512x1 ![0, 0, p.val] (shapeCast S32768x512x2 x h0) h1) h2 (ix2 r q)
      = x (ix2 r k) := by
  refine (shapeCast_apply _ h2 (ix2 r q) (ix3 r q (0 : Fin 1)) ?_).trans ?_
  · rw [Shape.rowMajor_val_three, Shape.rowMajor_val_two]
    show (r.val * 512 + q.val) * 1 + 0 = r.val * 512 + q.val
    omega
  refine (extractStridedSlice_apply ![0, 0, p.val] _ h1 (ix3 r q (0 : Fin 1)) (ix3 r q p) ?_).trans ?_
  · intro a
    match a with
    | ⟨0, _⟩ => show r.val = 0 + r.val; omega
    | ⟨1, _⟩ => show q.val = 0 + q.val; omega
    | ⟨2, _⟩ => show p.val = p.val + 0; omega
  refine shapeCast_apply x h0 (ix3 r q p) (ix2 r k) ?_
  rw [Shape.rowMajor_val_two, Shape.rowMajor_val_three]
  show r.val * 1024 + k.val = (r.val * 512 + q.val) * 2 + p.val
  omega

end Pure

variable (m : (ℓ : Loc nD τ sig) → Buf (Elt Ideal) ℓ)

/-! ## The four operand arrays a host operation wrote -/

/-- The identity half: the input at the even features. -/
theorem entry_v2 (c : Dev nD) : (V m c main_v2 : S32768x512.Idx → EReal)
    = fun i => m ((c : Thread nD τ).loc main_arg0) (ix2 (i 0) (Cert.Coupling.evenCol (i 1))) := by
  have e : (V m c main_v2 : S32768x512.Idx → EReal)
      = shapeCast S32768x512 (extractStridedSlice S32768x512x1 ![0, 0, (0 : Fin 2).val]
          (shapeCast S32768x512x2 (m ((c : Thread nD τ).loc main_arg0) : S32768x1024.Idx → EReal)
            Facts₀.shapeCasts_S32768x1024_S32768x512x2) Facts₀.slices_S32768x512x2_S32768x512x1_0_0_0)
          Facts₀.shapeCasts_S32768x512x1_S32768x512 := by
    show StableHlo.after hostOps0 (fun b => m (c, b)) (Proc.devRef .tc main_v2) = _
    after_results
    rfl
  rw [e]
  funext i
  obtain ⟨r, q, rfl⟩ : ∃ (r : Fin 32768) (q : Fin 512), i = ix2 r q := ⟨i 0, i 1, eq_ix2 i⟩
  exact half_apply 0 _ _ _ _ r q (Cert.Coupling.evenCol q) (by show 2 * q.val = 2 * q.val + 0; omega)

/-- The transformed half: the input at the odd features. -/
theorem entry_v4 (c : Dev nD) : (V m c main_v4 : S32768x512.Idx → EReal)
    = fun i => m ((c : Thread nD τ).loc main_arg0) (ix2 (i 0) (Cert.Coupling.oddCol (i 1))) := by
  have e : (V m c main_v4 : S32768x512.Idx → EReal)
      = shapeCast S32768x512 (extractStridedSlice S32768x512x1 ![0, 0, (1 : Fin 2).val]
          (shapeCast S32768x512x2 (m ((c : Thread nD τ).loc main_arg0) : S32768x1024.Idx → EReal)
            Facts₀.shapeCasts_S32768x1024_S32768x512x2) Facts₀.slices_S32768x512x2_S32768x512x1_0_0_1)
          Facts₀.shapeCasts_S32768x512x1_S32768x512 := by
    show StableHlo.after hostOps0 (fun b => m (c, b)) (Proc.devRef .tc main_v4) = _
    after_results
    rfl
  rw [e]
  funext i
  obtain ⟨r, q, rfl⟩ : ∃ (r : Fin 32768) (q : Fin 512), i = ix2 r q := ⟨i 0, i 1, eq_ix2 i⟩
  exact half_apply 1 _ _ _ _ r q (Cert.Coupling.oddCol q) (by show 2 * q.val + 1 = 2 * q.val + 1; rfl)

/-- The first weight matrix, converted to bf16: on the extended reals, itself. -/
theorem entry_v5 (c : Dev nD) : (V m c main_v5 : S512x512.Idx → EReal) = m ((c : Thread nD τ).loc main_arg1) := by
  show StableHlo.after hostOps0 (fun b => m (c, b)) (Proc.devRef .tc main_v5) = _
  after_results
  rfl

/-- The second weight matrix, converted to bf16: on the extended reals, itself. -/
theorem entry_v6 (c : Dev nD) : (V m c main_v6 : S512x1024.Idx → EReal) = m ((c : Thread nD τ).loc main_arg3) := by
  show StableHlo.after hostOps0 (fun b => m (c, b)) (Proc.devRef .tc main_v6) = _
  after_results
  rfl

end Cert.KernelIdeal.HostValue

end
-- ==== Proof.KernelTail.lean ====
/-
  What the program returns: its five host operations after the pallas_call, read at an index.

  The identity half %2 and the call's first result %7#0, both [32768, 512], are each given a trailing unit axis, joined
  along it to [32768, 512, 2] and reshaped to [32768, 1024]. In row-major order entry (r, q, p) of the joined array is
  feature 2 q + p of row r, so the even features of the first result are the identity half's and the odd features the
  call's. The second result is the call's [32768, 1] array without its unit axis.
-/
import proofs.«112335_j91319594647687_1_alg».proof.Proof.Gen.KernelIdeal.Frame
import proofs.«112335_j91319594647687_1_alg».proof.Proof.Spec
import Idealize.ShloMosaic.Lib.Pipeline.Value
import Idealize.ShloMosaic.Lib.Pipeline.FrameSuffix
import Idealize.ShloMosaic.Lib.Pipeline.Cells
import Idealize.ShloMosaic.Lib.ValueIdx
import Idealize.ShloMosaic.Lib.StableHlo.Run

noncomputable section

namespace Cert.KernelIdeal.HostValue

open Cert.KernelIdeal Cert.KernelIdeal.Gen Idealize.ShloMosaic Idealize.ShloMosaic.ValueIdx
open Idealize.ShloMosaic.TcCoe Idealize.ShloMosaic.StableHlo

/-! ## The layout chain at an index, over any element type -/

section Pure
variable {α : Type}

/-- A trailing unit axis added to a [32768, 512] array: entry (r, q, 0) is entry (r, q). -/
theorem addUnit_apply (a : S32768x512.Idx → α)
    (hb : S32768x512.BroadcastsInDim S32768x512x1 (![0, 1] : Fin 2 → Fin S32768x512x1.rank))
    (r : Fin 32768) (q : Fin 512) (z : Fin 1) :
    broadcastInDim S32768x512x1 (![0, 1] : Fin 2 → Fin S32768x512x1.rank) hb a (ix3 r q z) = a (ix2 r q) := by
  refine broadcastInDim_apply _ hb a (ix3 r q z) (ix2 r q) ?_
  intro d
  match d with
  | ⟨0, _⟩ => rfl
  | ⟨1, _⟩ => rfl

/-- Two [32768, 512] arrays, each with a trailing unit axis, joined along it and reshaped to [32768, 1024]: feature k
    of row r is the first array's entry (r, k / 2) when k is even and the second's when k is odd. -/
theorem interleave_apply (a b : S32768x512.Idx → α)
    (hb : S32768x512.BroadcastsInDim S32768x512x1 (![0, 1] : Fin 2 → Fin S32768x512x1.rank))
    (hc : Shape.Concatenates [S32768x512x1, S32768x512x1] S32768x512x2 2)
    (hs : S32768x512x2.ShapeCasts S32768x1024) (r : Fin 32768) (k : Fin 1024) :
    shapeCast S32768x1024
        (concatenate S32768x512x2 2
          [⟨S32768x512x1, broadcastInDim S32768x512x1 (![0, 1] : Fin 2 → Fin S32768x512x1.rank) hb a⟩,
           ⟨S32768x512x1, broadcastInDim S32768x512x1 (![0, 1] : Fin 2 → Fin S32768x512x1.rank) hb b⟩] hc) hs (ix2 r k)
      = if k.val % 2 = 0 then a (ix2 r (Cert.Coupling.halfCol k)) else b (ix2 r (Cert.Coupling.halfCol k)) := by
  have hk := k.isLt
  split
  · next h0 =>
    refine (shapeCast_apply _ hs (ix2 r k) (ix3 r (Cert.Coupling.halfCol k) (0 : Fin 2)) ?_).trans ?_
    · rw [Shape.rowMajor_val_three, Shape.rowMajor_val_two]
      show (r.val * 512 + k.val / 2) * 2 + 0 = r.val * 1024 + k.val
      omega
    refine (concatenate_pair_apply_left (2 : Fin S32768x512x2.rank) _ _ hc (ix3 r (Cert.Coupling.halfCol k) (0 : Fin 2)) rfl
      (ix3 r (Cert.Coupling.halfCol k) (0 : Fin 1)) ?_).trans ?_
    · intro d
      match d with
      | ⟨0, _⟩ => rfl
      | ⟨1, _⟩ => rfl
      | ⟨2, _⟩ => rfl
    exact addUnit_apply a hb r (Cert.Coupling.halfCol k) 0
  · next h1 =>
    refine (shapeCast_apply _ hs (ix2 r k) (ix3 r (Cert.Coupling.halfCol k) (1 : Fin 2)) ?_).trans ?_
    · rw [Shape.rowMajor_val_three, Shape.rowMajor_val_two]
      show (r.val * 512 + k.val / 2) * 2 + 1 = r.val * 1024 + k.val
      omega
    refine (concatenate_pair_apply_right (2 : Fin S32768x512x2.rank) _ _ hc (ix3 r (Cert.Coupling.halfCol k) (1 : Fin 2)) rfl rfl
      (ix3 r (Cert.Coupling.halfCol k) (0 : Fin 1)) ?_ ?_).trans ?_
    · intro d hd
      match d with
      | ⟨0, _⟩ => rfl
      | ⟨1, _⟩ => rfl
      | ⟨2, _⟩ => exact absurd rfl hd
    · rfl
    exact addUnit_apply b hb r (Cert.Coupling.halfCol k) 0

/-- A [32768, 1] array without its unit axis: entry r is entry (r, 0). -/
theorem dropUnit_apply (a : S32768x1.Idx → α) (hs : S32768x1.ShapeCasts S32768) (r : Fin 32768) :
    shapeCast S32768 a hs (ix1 r) = a (ix2 r (0 : Fin 1)) := by
  refine shapeCast_apply a hs (ix1 r) (ix2 r (0 : Fin 1)) ?_
  rw [Shape.rowMajor_val_two, Shape.rowMajor_val_one]
  show r.val * 1 + 0 = r.val
  omega

end Pure

variable (m : (ℓ : Loc nD τ sig) → Buf (Elt Ideal) ℓ)

/-! ## The arrays of the pipeline after the call, as the later operations find them -/

/-- What the operations after the call find in every buffer: the pipeline's arrays as the call leaves them, every other
    buffer as it was when the call was entered. -/
abbrev afterCall (c : Dev nD) : Valuation τ sig (Elt Ideal) :=
  Pipeline.withArrays spec0 c (V0 m c) fun w => (dats m 0 c).arrAt w cfg0.N

/-- The identity half is an operand of the call: it is as the call found it. -/
theorem afterCall_v2 (c : Dev nD) : afterCall m c (Proc.devRef .tc main_v2) = V m c main_v2 :=
  (Pipeline.withArrays_arr spec0 launch0.win.arr_inj c _ _ 0).trans
    (((dats m 0 c).arrAt_in 0 rfl _).trans (A_eq m c 0))

/-- The call's first result. -/
theorem afterCall_v7_0 (c : Dev nD) : afterCall m c (Proc.devRef .tc main_v7_0) = (dats m 0 c).arrAt 6 cfg0.N :=
  Pipeline.withArrays_arr spec0 launch0.win.arr_inj c _ _ 6

/-- The call's second result. -/
theorem afterCall_v7_1 (c : Dev nD) : afterCall m c (Proc.devRef .tc main_v7_1) = (dats m 0 c).arrAt 7 cfg0.N :=
  Pipeline.withArrays_arr spec0 launch0.win.arr_inj c _ _ 7

/-! ## The two results -/

/-- THE FIRST RESULT: the identity half at the even features, the call's first result at the odd ones. -/
theorem tail_v11 (c : Dev nD) :
    (Pipeline.afterTail₀ cfgs (dats m) 0 (V0 m) [hostOps1] c main_v11 : S32768x1024.Idx → EReal)
      = fun i => if (i 1).val % 2 = 0 then (V m c main_v2 : S32768x512.Idx → EReal) (ix2 (i 0) (Cert.Coupling.halfCol (i 1)))
          else ((dats m 0 c).arrAt 6 cfg0.N : S32768x512.Idx → EReal) (ix2 (i 0) (Cert.Coupling.halfCol (i 1))) := by
  have e : (Pipeline.afterTail₀ cfgs (dats m) 0 (V0 m) [hostOps1] c main_v11 : S32768x1024.Idx → EReal)
      = shapeCast S32768x1024
          (concatenate S32768x512x2 2
            [⟨S32768x512x1, broadcastInDim S32768x512x1 (![0, 1] : Fin 2 → Fin S32768x512x1.rank)
                Facts₀.bcast_S32768x512_S32768x512x1_0_1 (V m c main_v2 : S32768x512.Idx → EReal)⟩,
             ⟨S32768x512x1, broadcastInDim S32768x512x1 (![0, 1] : Fin 2 → Fin S32768x512x1.rank)
                Facts₀.bcast_S32768x512_S32768x512x1_0_1 ((dats m 0 c).arrAt 6 cfg0.N : S32768x512.Idx → EReal)⟩]
            Facts₀.concatenates_S32768x512x1_S32768x512x1_S32768x512x2_d2)
          Facts₀.shapeCasts_S32768x512x2_S32768x1024 := by
    unfold Pipeline.afterTail₀
    show StableHlo.after hostOps1 (afterCall m c) (Proc.devRef .tc main_v11) = _
    after_results
    rw [afterCall_v2, afterCall_v7_0]
    rfl
  rw [e]
  funext i
  obtain ⟨r, k, rfl⟩ : ∃ (r : Fin 32768) (k : Fin 1024), i = ix2 r k := ⟨i 0, i 1, eq_ix2 i⟩
  exact interleave_apply _ _ _ _ _ r k

/-- THE SECOND RESULT: the call's second result without its unit axis. -/
theorem tail_v12 (c : Dev nD) :
    (Pipeline.afterTail₀ cfgs (dats m) 0 (V0 m) [hostOps1] c main_v12 : S32768.Idx → EReal)
      = fun i => ((dats m 0 c).arrAt 7 cfg0.N : S32768x1.Idx → EReal) (ix2 (i 0) (0 : Fin 1)) := by
  have e : (Pipeline.afterTail₀ cfgs (dats m) 0 (V0 m) [hostOps1] c main_v12 : S32768.Idx → EReal)
      = shapeCast S32768 ((dats m 0 c).arrAt 7 cfg0.N : S32768x1.Idx → EReal) Facts₀.shapeCasts_S32768x1_S32768 := by
    unfold Pipeline.afterTail₀
    show StableHlo.after hostOps1 (afterCall m c) (Proc.devRef .tc main_v12) = _
    after_results
    rw [afterCall_v7_1]
    rfl
  rw [e]
  funext i
  obtain ⟨r, rfl⟩ : ∃ r : Fin 32768, i = ix1 r := ⟨i 0, eq_ix1 i⟩
  exact dropUnit_apply _ _ r

end Cert.KernelIdeal.HostValue

end
-- ==== Proof.KernelValue.lean ====
/-
  The idealized kernel program's two results, as the specification's functions of its five arguments.

  The region is handed the even features of the input as its identity half and the odd features as its transformed half,
  and the weights and biases themselves (the change to bf16 is the identity on the extended reals). So the transformed
  output it leaves is the specification's, row by row, and its log-determinant column the specification's log-determinant.
  The operations after the region interleave the identity half with the transformed output again, feature 2 j from the
  first and feature 2 j + 1 from the second, and drop the column's unit axis: the two results of the specification.
-/
import proofs.«112335_j91319594647687_1_alg».proof.Proof.KernelArrays
import proofs.«112335_j91319594647687_1_alg».proof.Proof.KernelEntry
import proofs.«112335_j91319594647687_1_alg».proof.Proof.KernelTail

noncomputable section

namespace Cert.KernelIdeal.Whole

open Cert.KernelIdeal Cert.KernelIdeal.Gen Cert.KernelIdeal.Arrays Cert.KernelIdeal.HostValue
open Idealize.ShloMosaic Idealize.ShloMosaic.TcCoe Idealize.ShloMosaic.ValueIdx Idealize.SL.Sem Cert.Coupling

variable (m : (ℓ : Loc nD τ sig) → Buf (Elt Ideal) ℓ) (ρ : Dev nD → PrngReg)

/-- The transformed output the region leaves is the specification's. -/
theorem arr6_eq (c : Dev nD) : ((dats m 0 c).arrAt 6 cfg0.N : S32768x512.Idx → EReal)
    = outTr (m ((c : Thread nD τ).loc main_arg1)) (m ((c : Thread nD τ).loc main_arg2)) (m ((c : Thread nD τ).loc main_arg3))
        (m ((c : Thread nD τ).loc main_arg4)) (m ((c : Thread nD τ).loc main_arg0)) := by
  rw [final6, entry_v2, entry_v4, entry_v5, entry_v6, V_main_arg2, V_main_arg4]
  rfl

/-- The log-determinant column the region leaves is the specification's log-determinant, with a unit axis. -/
theorem arr7_eq (c : Dev nD) : ((dats m 0 c).arrAt 7 cfg0.N : S32768x1.Idx → EReal)
    = fun i => lad (m ((c : Thread nD τ).loc main_arg1)) (m ((c : Thread nD τ).loc main_arg2)) (m ((c : Thread nD τ).loc main_arg3))
        (m ((c : Thread nD τ).loc main_arg4)) (m ((c : Thread nD τ).loc main_arg0)) (ix1 (i 0)) := by
  rw [final7, entry_v2, entry_v5, entry_v6, V_main_arg2, V_main_arg4]
  rfl

/-- THE FIRST RESULT of the program. -/
theorem v11_eq (c : Dev nD) : (Pipeline.afterTail₀ cfgs (dats m) 0 (V0 m) [hostOps1] c main_v11 : S32768x1024.Idx → EReal)
    = out (m ((c : Thread nD τ).loc main_arg1)) (m ((c : Thread nD τ).loc main_arg2)) (m ((c : Thread nD τ).loc main_arg3))
        (m ((c : Thread nD τ).loc main_arg4)) (m ((c : Thread nD τ).loc main_arg0)) := by
  rw [tail_v11, arr6_eq, entry_v2]
  funext i
  obtain ⟨r, k, rfl⟩ : ∃ (r : Fin 32768) (k : Fin 1024), i = ix2 r k := ⟨i 0, i 1, eq_ix2 i⟩
  unfold out
  by_cases hk : k.val % 2 = 0
  · have e : evenCol (halfCol k) = k := Fin.ext (by show 2 * (k.val / 2) = k.val; omega)
    show (if k.val % 2 = 0 then m ((c : Thread nD τ).loc main_arg0) (ix2 r (evenCol (halfCol k))) else _) = if k.val % 2 = 0 then _ else _
    rw [if_pos hk, if_pos hk, e]
  · show (if k.val % 2 = 0 then _ else _) = if k.val % 2 = 0 then _ else _
    rw [if_neg hk, if_neg hk]
    rfl

/-- THE SECOND RESULT of the program. -/
theorem v12_eq (c : Dev nD) : (Pipeline.afterTail₀ cfgs (dats m) 0 (V0 m) [hostOps1] c main_v12 : S32768.Idx → EReal)
    = lad (m ((c : Thread nD τ).loc main_arg1)) (m ((c : Thread nD τ).loc main_arg2)) (m ((c : Thread nD τ).loc main_arg3))
        (m ((c : Thread nD τ).loc main_arg4)) (m ((c : Thread nD τ).loc main_arg0)) := by
  rw [tail_v12, arr7_eq]
  funext i
  obtain ⟨r, rfl⟩ : ∃ r : Fin 32768, i = ix1 r := ⟨i 0, eq_ix1 i⟩
  rfl

/-- The program's run: every weakly fair execution ends with the two results at the specification's functions of the
    arguments, and the arguments unchanged. -/
theorem run : θ_run defs (onTc (τ := τ) (main (F := Ideal))) ⟨m, fun _ => 0, ρ⟩ (fun r => ∀ c : Dev nD,
      r.2.mem ((c.tc : Thread nD τ).loc main_v11)
        = out (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg0))
      ∧ r.2.mem ((c.tc : Thread nD τ).loc main_v12)
        = lad (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v11 (Pipeline.mem_restRefs_of main_v11 (by decide) (by decide))).trans (v11_eq m c),
      ((h c).2 main_v12 (Pipeline.mem_restRefs_of main_v12 (by decide) (by decide))).trans (v12_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c)))⟩)
    (run_main m ρ)

end Cert.KernelIdeal.Whole

end
-- ==== Proof.LibGathers.lean ====
/-
  Two gathers read at an index, generic in every extent.

  Columns of a table taken at a column of start indices (jnp's  table[:, idx]  on a matrix, the start indices as an
  [N, 1] array): the result's entry (p, q) is the table's entry at row p and column  idx[q, 0] , that word read as a
  signed integer and clamped into the table's columns.

  Rows of a table taken at a MATRIX of start indices (jnp's  table[idx]  for a two-axis index array, the start indices as
  an [N, M, 1] array): the result's entry (p, q, k) is the table's entry at row  idx[p, q, 0]  (signed, clamped into the
  table's rows) and column k.
-/
import Idealize.ShloMosaic.PureOps
import Idealize.ShloMosaic.Lib.ValueIdx

noncomputable section

open Idealize.ShloMosaic Idealize.ShloMosaic.ValueIdx

namespace Cert.Gathers

variable {α : Type}

/-- The dimension numbers of  table[:, idx]  for an [R, C] table and an [N, 1] column of start indices: axis 1 collapsed
    and indexed, axis 0 an offset axis taken whole; the result is [R, N]. -/
abbrev colsDims (R C N : ℕ)
    (wf : GatherDims.WF ⟨2, ![R, C]⟩ ⟨2, ![N, 1]⟩ ⟨2, ![R, N]⟩ [0] [1] [] [1] [] 1 ![R, 1]) :
    GatherDims ⟨2, ![R, C]⟩ ⟨2, ![N, 1]⟩ ⟨2, ![R, N]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT (p, q): the table at row p and column  idx[q, 0]  (signed, clamped into [0, C − 1]). -/
theorem gather_cols_apply {R C N w : ℕ} (hC : 0 < C)
    (wf : GatherDims.WF ⟨2, ![R, C]⟩ ⟨2, ![N, 1]⟩ ⟨2, ![R, N]⟩ [0] [1] [] [1] [] 1 ![R, 1])
    (x : (⟨2, ![R, C]⟩ : Shape).Idx → α) (idx : IVec ⟨2, ![N, 1]⟩ w) (p : Fin R) (q : Fin N) :
    Host.gather (colsDims R C N wf) x idx (ix2 p q)
      = x (ix2 p ⟨min (idx (ix2 q 0)).toInt.toNat (C - 1), by omega⟩) := by
  unfold Host.gather
  congr 1
  funext a
  refine Fin.ext ?_
  match a with
  | ⟨0, _⟩ =>
    have h01 : (0 : Fin 2) ∉ ([1] : List (Fin 2)) := by decide
    show (colsDims R C N wf).start (ix2 p q) idx 0 + (colsDims R C N wf).batchCoord (ix2 p q) 0
      + (colsDims R C N wf).offCoord (ix2 p q) 0 = p.val
    rw [GatherDims.batchCoord_eq_zero _ _ _ List.not_mem_nil]
    unfold GatherDims.start
    rw [dif_neg (show (0 : Fin 2) ∉ (colsDims R C N wf).startIndexMap from h01)]
    unfold GatherDims.offCoord
    rw [dif_pos (show (0 : Fin 2) ∈ (colsDims R C N wf).sKept from
      (GatherDims.mem_sKept _ _).mpr ⟨h01, List.not_mem_nil⟩)]
    simp only [Nat.zero_add, Nat.add_zero]
    rfl
  | ⟨1, _⟩ =>
    show (colsDims R C N wf).start (ix2 p q) idx 1 + (colsDims R C N wf).batchCoord (ix2 p q) 1
      + (colsDims R C N wf).offCoord (ix2 p q) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R C N wf).startIndexMap from List.mem_singleton.mpr rfl)]
    have hsi : (colsDims R C N wf).siIdx (ix2 p q) ⟨List.idxOf (1 : Fin 2) (colsDims R C N wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl

/-- The dimension numbers of  table[idx]  for a [T, C] table and an [N, M, 1] array of start indices: axis 0 collapsed
    and indexed, axis 1 an offset axis taken whole; the result is [N, M, C]. -/
abbrev rows3Dims (T C N M : ℕ)
    (wf : GatherDims.WF ⟨2, ![T, C]⟩ ⟨3, ![N, M, 1]⟩ ⟨3, ![N, M, C]⟩ [2] [0] [] [0] [] 2 ![1, C]) :
    GatherDims ⟨2, ![T, C]⟩ ⟨3, ![N, M, 1]⟩ ⟨3, ![N, M, C]⟩ where
  offsetDims := [2]
  collapsedSliceDims := [0]
  operandBatchingDims := []
  startIndicesBatchingDims := []
  startIndexMap := [0]
  indexVectorDim := 2
  sliceSizes := ![1, C]
  wf := wf

/-- THE ROW GATHER OVER A MATRIX OF START INDICES READ AT (p, q, k): the table at row  idx[p, q, 0]  (signed, clamped
    into [0, T − 1]) and column k. -/
theorem gather_rows3_apply {T C N M w : ℕ} (hT : 0 < T)
    (wf : GatherDims.WF ⟨2, ![T, C]⟩ ⟨3, ![N, M, 1]⟩ ⟨3, ![N, M, C]⟩ [2] [0] [] [0] [] 2 ![1, C])
    (x : (⟨2, ![T, C]⟩ : Shape).Idx → α) (idx : IVec ⟨3, ![N, M, 1]⟩ w) (p : Fin N) (q : Fin M) (k : Fin C) :
    Host.gather (rows3Dims T C N M wf) x idx (ix3 p q k)
      = x (ix2 ⟨min (idx (ix3 p q 0)).toInt.toNat (T - 1), by omega⟩ k) := by
  unfold Host.gather
  congr 1
  funext a
  refine Fin.ext ?_
  match a with
  | ⟨0, _⟩ =>
    show (rows3Dims T C N M wf).start (ix3 p q k) idx 0 + (rows3Dims T C N M wf).batchCoord (ix3 p q k) 0
      + (rows3Dims T C N M wf).offCoord (ix3 p q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims T C N M wf).startIndexMap from List.mem_singleton.mpr rfl)]
    have hsi : (rows3Dims T C N M wf).siIdx (ix3 p q k) ⟨List.idxOf (0 : Fin 2) (rows3Dims T C N M wf).startIndexMap,
        List.idxOf_lt_length_iff.2 (List.mem_singleton.mpr rfl)⟩ = ix3 p q 0 := by
      funext b; refine Fin.ext ?_
      match b with
      | ⟨0, _⟩ => rfl
      | ⟨1, _⟩ => rfl
      | ⟨2, _⟩ => rfl
    rw [hsi]
    rfl
  | ⟨1, _⟩ =>
    have h10 : (1 : Fin 2) ∉ ([0] : List (Fin 2)) := by decide
    show (rows3Dims T C N M wf).start (ix3 p q k) idx 1 + (rows3Dims T C N M wf).batchCoord (ix3 p q k) 1
      + (rows3Dims T C N M wf).offCoord (ix3 p q k) 1 = k.val
    rw [GatherDims.batchCoord_eq_zero _ _ _ List.not_mem_nil]
    unfold GatherDims.start
    rw [dif_neg (show (1 : Fin 2) ∉ (rows3Dims T C N M wf).startIndexMap from h10)]
    unfold GatherDims.offCoord
    rw [dif_pos (show (1 : Fin 2) ∈ (rows3Dims T C N M wf).sKept from
      (GatherDims.mem_sKept _ _).mpr ⟨h10, List.not_mem_nil⟩)]
    simp only [Nat.zero_add, Nat.add_zero]
    rfl

end Cert.Gathers

end
-- ==== Proof.LibScatterLanding.lean ====
/-
  Where an accumulating or overwriting scatter's update lands — for ANY scatter dimension numbers.

  StableHLO's scatter drops an update unless its result index (the start index read as a SIGNED integer and NOT clamped,
  plus the update's window coordinate) names an element of the operand. So "update j lands on element i" says exactly
  that, on every operand axis, the signed start plus the window coordinate IS i's coordinate — whatever the index words
  are, in range or not: an out-of-range update simply lands nowhere. With it, the accumulating scatter at an element is
  the operand there plus the sum of the updates that land there, the landing test a decidable equation between integers.
  Library imports only.
-/
import Idealize.ShloMosaic.PureOps.Ideal

noncomputable section

namespace Cert.Sage

open Idealize.ShloMosaic

/-- An update lands on element i exactly when, on every axis, its signed start plus its window coordinate is i's
    coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    by_cases hr : ∀ a, 0 ≤ d.start j idx a + d.window j a ∧ d.start j idx a + d.window j a < s.size a
    · rw [dif_pos hr] at h
      -- the landing index is the start plus the window coordinate, which is non-negative here
      have hv : (d.start j idx a + (d.window j a : Int)).toNat = (i a).val :=
        congrArg Fin.val (congrFun (Option.some.inj h) a)
      have h0 := (hr a).1
      omega
    · rw [dif_neg hr] at h
      exact absurd h (by simp)
  · intro h
    -- the equations put every coordinate in range, because every coordinate of i is in range
    have hr : ∀ a, 0 ≤ d.start j idx a + d.window j a ∧ d.start j idx a + d.window j a < s.size a := by
      intro a
      have h1 := h a
      have h2 := (i a).isLt
      omega
    rw [dif_pos hr]
    refine congrArg some ?_
    funext a
    refine Fin.ext ?_
    show (d.start j idx a + (d.window j a : Int)).toNat = (i a).val
    have h1 := h a
    omega

/-- The accumulating float scatter read at an element, on the extended reals: the operand there plus every update that
    lands there. -/
theorem scatterAdd_at {s si u : Shape} {w : Nat} (d : ScatterDims s si u) (x : s.Idx → EReal) (idx : IVec si w)
    (upd : u.Idx → EReal) (i : s.Idx) :
    Host.scatterAdd (F := Ideal) (φ := .f32) d x idx upd i
      = x i + ∑ j ∈ Finset.univ.filter (fun j => d.resultIdx? j idx = some i), upd j := rfl

end Cert.Sage

end
-- ==== Proof.LibScatterSet.lean ====
/-
  The overwriting scatter read at one element — for ANY scatter dimension numbers.

  StableHLO's scatter with the body that returns the update ( x.at[idx].set(v) ) is a left fold over the update indices
  in row-major order: each update index either lands on one element of the operand, which it overwrites, or lands
  nowhere and is dropped. Read at ONE element i the fold is simple whenever at most one update index lands on i:
  if update index j0 lands on i and no other does, the result at i is the update at j0, whatever came before and
  whatever comes after; if no update index lands on i, the result at i is the operand's element.

  Both facts come from two lemmas on a left fold over a list with an ABSTRACT step: a step that leaves the value at i
  alone for every member of the list leaves the fold's value at i alone; and if exactly one member n0 of a list without
  repetitions sets the value at i to v (whatever it was), every other member leaving it alone, the fold's value at i is v.
  Library imports only.
-/
import Idealize.ShloMosaic.PureOps

noncomputable section

namespace Cert.ScatterSet

open Idealize.ShloMosaic

section Fold

variable {ι γ β : Type}

/-- A left fold whose every step leaves the value at i alone leaves it alone. -/
theorem foldl_untouched (F : (γ → β) → ι → (γ → β)) (i : γ) :
    ∀ (l : List ι) (r : γ → β), (∀ n ∈ l, ∀ r', F r' n i = r' i) → l.foldl F r i = r i
  | [], _, _ => rfl
  | n :: l, r, h => by
    rw [List.foldl_cons, foldl_untouched F i l (F r n) (fun m hm => h m (List.mem_cons_of_mem _ hm))]
    exact h n List.mem_cons_self r

/-- A left fold over a list without repetitions in which ONE member n0 sets the value at i to v, whatever it was, and
    every other member leaves it alone: the fold's value at i is v. -/
theorem foldl_set_once (F : (γ → β) → ι → (γ → β)) (i : γ) (l : List ι) (hnd : l.Nodup) (n0 : ι) (hn0 : n0 ∈ l)
    (v : β) (r : γ → β) (hmiss : ∀ n ∈ l, n ≠ n0 → ∀ r', F r' n i = r' i) (hhit : ∀ r', F r' n0 i = v) :
    l.foldl F r i = v := by
  obtain ⟨l1, l2, rfl⟩ := List.append_of_mem hn0
  -- n0 does not occur again after its place
  have hn2 : n0 ∉ l2 := by
    have h2 := (List.nodup_append.mp hnd).2.1
    exact (List.nodup_cons.mp h2).1
  rw [List.foldl_append, List.foldl_cons,
    foldl_untouched F i l2 _ (fun m hm => hmiss m (List.mem_append_right _ (List.mem_cons_of_mem _ hm))
      (fun e => hn2 (e ▸ hm)))]
  exact hhit _

end Fold

variable {s si u : Shape} {α : Type} {w : Nat}

/-- THE OVERWRITING SCATTER AT AN ELEMENT ONE UPDATE LANDS ON: if update index j0 lands on i and no other update index
    does, the result at i is the update at j0. -/
theorem scatter_set_at_of_lands (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  unfold Host.scatter
  refine foldl_set_once _ i _ (List.nodup_finRange _) (u.rowMajor j0) (List.mem_finRange _) (upd j0) x ?_ ?_
  · intro n _ hn r'
    generalize h1 : d.resultIdx? (u.rowMajor.symm n) idx = o
    cases o with
    | none => rfl
    | some i1 =>
      -- another update index lands on i1, which is therefore not i
      have hne : i ≠ i1 := by
        intro e
        have := huniq (u.rowMajor.symm n) (e ▸ h1)
        exact hn (by rw [← this, Equiv.apply_symm_apply])
      exact if_neg hne
  · intro r'
    rw [Equiv.symm_apply_apply, h0]
    exact if_pos rfl

/-- THE OVERWRITING SCATTER AT AN ELEMENT NO UPDATE LANDS ON: the operand's element. -/
theorem scatter_set_at_of_no_lands (d : ScatterDims s si u) (x : s.Idx → α) (idx : IVec si w) (upd : u.Idx → α)
    (i : s.Idx) (hno : ∀ j, d.resultIdx? j idx ≠ some i) :
    Host.scatter d (fun _ b => b) x idx upd i = x i := by
  unfold Host.scatter
  refine foldl_untouched _ i _ x ?_
  intro n _ r'
  generalize h1 : d.resultIdx? (u.rowMajor.symm n) idx = o
  cases o with
  | none => rfl
  | some i1 =>
    have hne : i ≠ i1 := fun e => hno (u.rowMajor.symm n) (e ▸ h1)
    exact if_neg hne

end Cert.ScatterSet

end
-- ==== Proof.LibScatterCols.lean ====
/-
  Columns of a matrix overwritten at a column of start indices, read at an element — generic in every extent.

  The expression  operand.at[:, idx].set(updates)  on an [R, C] operand with the start indices as an [N, 1] array and [R, N]
  updates: update (p, q) is meant for the operand's element at row p and the column whose number is the SIGNED value of
  the index word idx[q, 0]; it lands there when that value is a column of the operand and is dropped when it is not.
  So update (p, q) lands on element (r, c) exactly when p = r and idx[q, 0], read signed, is c. With the reading of the
  overwriting scatter at one element this gives the scatter at (r, c): the update (r, q0) when q0 is the one index
  whose word is c, and the operand's element when no word is c.
-/
import Idealize.ShloMosaic.PureOps
import Idealize.ShloMosaic.Lib.ValueIdx
import proofs.«112335_j91319594647687_1_alg».proof.Proof.LibScatterLanding
import proofs.«112335_j91319594647687_1_alg».proof.Proof.LibScatterSet

noncomputable section

open Idealize.ShloMosaic Idealize.ShloMosaic.ValueIdx

namespace Cert.ScatterCols

variable {α : Type}

/-- The dimension numbers of  operand.at[:, idx].set(updates)  for an [R, C] operand, an [N, 1] column of start indices
    and [R, N] updates: the updates' axis 0 is a window axis going to the operand's axis 0, the operand's axis 1 is
    inserted and indexed. -/
abbrev colsDims (R C N : ℕ)
    (wf : ScatterDims.WF ⟨2, ![R, C]⟩ ⟨2, ![N, 1]⟩ ⟨2, ![R, N]⟩ [0] [1] [1] 1) :
    ScatterDims ⟨2, ![R, C]⟩ ⟨2, ![N, 1]⟩ ⟨2, ![R, N]⟩ where
  updateWindowDims := [0]
  insertedWindowDims := [1]
  scatterDimsToOperandDims := [1]
  indexVectorDim := 1
  wf := wf

section
variable {R C N w : ℕ} (wf : ScatterDims.WF ⟨2, ![R, C]⟩ ⟨2, ![N, 1]⟩ ⟨2, ![R, N]⟩ [0] [1] [1] 1)
  (idx : IVec ⟨2, ![N, 1]⟩ w) (p : Fin R) (q : Fin N)

/-- On the row axis the start is 0 (the axis is not indexed) and the window coordinate is the update's row. -/
theorem start_add_window_row :
    (colsDims R C N wf).start (ix2 p q) idx 0 + ((colsDims R C N wf).window (ix2 p q) 0 : Int) = (p.val : Int) := by
  have h01 : (0 : Fin 2) ∉ ([1] : List (Fin 2)) := by decide
  have hk : (0 : Fin 2) ∈ (colsDims R C N wf).sKept := by
    simp [ScatterDims.sKept, Shape.kept, List.mem_filter, List.mem_finRange]
  unfold ScatterDims.start ScatterDims.window
  rw [dif_neg (show (0 : Fin 2) ∉ (colsDims R C N wf).scatterDimsToOperandDims from h01), dif_pos hk, Int.zero_add]
  rfl

/-- On the column axis the start is the signed index word of the update's column and the window coordinate is 0 (the
    axis is inserted). -/
theorem start_add_window_col :
    (colsDims R C N wf).start (ix2 p q) idx 1 + ((colsDims R C N wf).window (ix2 p q) 1 : Int)
      = (idx (ix2 q 0)).toInt := by
  have hk : (1 : Fin 2) ∉ (colsDims R C N wf).sKept := by
    simp [ScatterDims.sKept, Shape.kept, List.mem_filter, List.mem_finRange]
  unfold ScatterDims.start ScatterDims.window
  rw [dif_pos (show (1 : Fin 2) ∈ (colsDims R C N wf).scatterDimsToOperandDims from List.mem_singleton.mpr rfl),
    dif_neg hk]
  have hsi : (colsDims R C N wf).siIdx (ix2 p q)
      ⟨List.idxOf (1 : Fin 2) (colsDims R C N wf).scatterDimsToOperandDims,
        List.idxOf_lt_length_iff.2 (List.mem_singleton.mpr rfl)⟩ = ix2 q 0 := by
    funext b; refine Fin.ext ?_
    match b with
    | ⟨0, _⟩ => rfl
    | ⟨1, _⟩ => rfl
  rw [hsi]
  simp only [Nat.cast_zero, Int.add_zero]

/-- WHERE AN UPDATE LANDS: update (p, q) lands on element (r, c) exactly when p = r and the index word of q, read
    signed, is c. -/
theorem lands_iff (r : Fin R) (c : Fin C) :
    (colsDims R C N wf).resultIdx? (ix2 p q) idx = some (ix2 r c)
      ↔ p = r ∧ (idx (ix2 q 0)).toInt = (c.val : Int) := by
  rw [Cert.Sage.resultIdx?_eq_some_iff]
  constructor
  · intro h
    have h0 : (p.val : Int) = (r.val : Int) := (start_add_window_row wf idx p q).symm.trans (h 0)
    have h1 : (idx (ix2 q 0)).toInt = (c.val : Int) := (start_add_window_col wf idx p q).symm.trans (h 1)
    exact ⟨Fin.ext (by omega), h1⟩
  · rintro ⟨hp, hc⟩ a
    match a with
    | ⟨0, _⟩ => exact (start_add_window_row wf idx p q).trans (by rw [hp])
    | ⟨1, _⟩ => exact (start_add_window_col wf idx p q).trans hc

variable (x : (⟨2, ![R, C]⟩ : Shape).Idx → α) (upd : (⟨2, ![R, N]⟩ : Shape).Idx → α)

/-- THE COLUMN-OVERWRITING SCATTER AT (r, c), WHEN ONE INDEX WORD IS c: the update at row r and that index. -/
theorem scatter_cols_set_hit (r : Fin R) (c : Fin C) (q0 : Fin N) (h0 : (idx (ix2 q0 0)).toInt = (c.val : Int))
    (huniq : ∀ q', (idx (ix2 q' 0)).toInt = (c.val : Int) → q' = q0) :
    Host.scatter (colsDims R C N wf) (fun _ b => b) x idx upd (ix2 r c) = upd (ix2 r q0) := by
  refine Cert.ScatterSet.scatter_set_at_of_lands _ x idx upd (ix2 r c) (ix2 r q0)
    ((lands_iff wf idx r q0 r c).mpr ⟨rfl, h0⟩) ?_
  intro j hj
  obtain ⟨a, b, rfl⟩ : ∃ (a : Fin R) (b : Fin N), j = ix2 a b := ⟨j 0, j 1, eq_ix2 j⟩
  obtain ⟨h1, h2⟩ := (lands_iff wf idx a b r c).mp hj
  rw [h1, huniq _ h2]

/-- THE COLUMN-OVERWRITING SCATTER AT (r, c), WHEN NO INDEX WORD IS c: the operand's element. -/
theorem scatter_cols_set_miss (r : Fin R) (c : Fin C) (hno : ∀ q', (idx (ix2 q' 0)).toInt ≠ (c.val : Int)) :
    Host.scatter (colsDims R C N wf) (fun _ b => b) x idx upd (ix2 r c) = x (ix2 r c) := by
  refine Cert.ScatterSet.scatter_set_at_of_no_lands _ x idx upd (ix2 r c) ?_
  intro j hj
  obtain ⟨a, b, rfl⟩ : ∃ (a : Fin R) (b : Fin N), j = ix2 a b := ⟨j 0, j 1, eq_ix2 j⟩
  exact hno _ ((lands_iff wf idx a b r c).mp hj).2

end

end Cert.ScatterCols

end
-- ==== Proof.RefIndex.lean ====
/-
  The reference program's index tables, gathers and scatters, read at an index.

  The reference splits a row of 1024 features by two tables of column numbers, 2 q and 2 q + 1 for q below 512, each
  computed as a word (a product, a sum, and a wrap of negative numbers that never fires here). It takes the columns
  2 q (the identity half) and 2 q + 1 (the transformed half) of the input by two gathers, and puts the two halves
  back by two overwriting scatters into an array of zeros: first the identity half at the columns 2 q, then the
  transformed result at the columns 2 q + 1. Read at an element: the first scatter is the input at an even column and
  the zero literal at an odd one; the second is the first at an even column and the transformed result at column
  (c - 1) / 2 at an odd column c.
-/
import proofs.«112335_j91319594647687_1_alg».proof.Proof.Gen.ReferenceIdeal.Read
import proofs.«112335_j91319594647687_1_alg».proof.Proof.Spec
import proofs.«112335_j91319594647687_1_alg».proof.Proof.LibGathers
import proofs.«112335_j91319594647687_1_alg».proof.Proof.LibScatterCols

noncomputable section

namespace Cert.Coupling.Ref

open Cert.ReferenceIdeal Cert.ReferenceIdeal.Gen Cert.ReferenceIdeal.Read Idealize.ShloMosaic
  Idealize.ShloMosaic.ValueIdx Cert.Coupling

/-! ## The words of the column numbers -/

/-- The word the reference computes for 2 q: the wrap of a negative number does not fire. -/
theorem word_even : ∀ q : Fin 512,
    Scalar.select (IntOp.cmpi .slt (IntOp.addi 0#32 (IntOp.muli 2#32 (BitVec.ofNat 32 q.val))) 0#32)
      (IntOp.addi (IntOp.addi 0#32 (IntOp.muli 2#32 (BitVec.ofNat 32 q.val))) 1024#32)
      (IntOp.addi 0#32 (IntOp.muli 2#32 (BitVec.ofNat 32 q.val))) = BitVec.ofNat 32 (2 * q.val) := by
  decide +kernel

/-- The word the reference computes for 2 q + 1. -/
theorem word_odd : ∀ q : Fin 512,
    Scalar.select (IntOp.cmpi .slt (IntOp.addi 1#32 (IntOp.muli 2#32 (BitVec.ofNat 32 q.val))) 0#32)
      (IntOp.addi (IntOp.addi 1#32 (IntOp.muli 2#32 (BitVec.ofNat 32 q.val))) 1024#32)
      (IntOp.addi 1#32 (IntOp.muli 2#32 (BitVec.ofNat 32 q.val))) = BitVec.ofNat 32 (2 * q.val + 1) := by
  decide +kernel

/-- Read signed, the word of 2 q is 2 q. -/
theorem toInt_even : ∀ q : Fin 512, (BitVec.ofNat 32 (2 * q.val)).toInt = ((2 * q.val : ℕ) : Int) := by
  decide +kernel

/-- Read signed, the word of 2 q + 1 is 2 q + 1. -/
theorem toInt_odd : ∀ q : Fin 512, (BitVec.ofNat 32 (2 * q.val + 1)).toInt = ((2 * q.val + 1 : ℕ) : Int) := by
  decide +kernel

variable {F : FTy → Type} [FloatOps F]

/-- The gathers' table of even columns at entry q. -/
theorem v15_word (q : Fin 512) : val_main_v15 (F := F) (ix2 q 0) = BitVec.ofNat 32 (2 * q.val) := by
  simp only [val_main_v15_apply, val_main_v14_apply, val_main_v11_apply, val_main_v13_apply, val_main_v4_apply,
    val_main_v3_apply, val_main_c_0_apply, val_main_v2_apply, val_main_v1_apply, val_main_c_apply, val_main_v0_apply,
    val_main_v10_apply, val_main_c_3_apply, val_main_v12_apply, val_main_c_4_apply]
  exact word_even q

/-- The gathers' table of odd columns at entry q. -/
theorem v22_word (q : Fin 512) : val_main_v22 (F := F) (ix2 q 0) = BitVec.ofNat 32 (2 * q.val + 1) := by
  simp only [val_main_v22_apply, val_main_v21_apply, val_main_v18_apply, val_main_v20_apply, val_main_v9_apply,
    val_main_v8_apply, val_main_c_2_apply, val_main_v7_apply, val_main_v6_apply, val_main_c_1_apply, val_main_v5_apply,
    val_main_v17_apply, val_main_c_5_apply, val_main_v19_apply, val_main_c_6_apply]
  exact word_odd q

/-- The scatters' table of even columns at entry q. -/
theorem v55_word (q : Fin 512) : val_main_v55 (F := F) (ix2 q 0) = BitVec.ofNat 32 (2 * q.val) := by
  simp only [val_main_v55_apply, val_main_v54_apply, val_main_v51_apply, val_main_v53_apply, val_main_v4_apply,
    val_main_v3_apply, val_main_c_0_apply, val_main_v2_apply, val_main_v1_apply, val_main_c_apply, val_main_v0_apply,
    val_main_v50_apply, val_main_c_12_apply, val_main_v52_apply, val_main_c_13_apply]
  exact word_even q

/-- The scatters' table of odd columns at entry q. -/
theorem v62_word (q : Fin 512) : val_main_v62 (F := F) (ix2 q 0) = BitVec.ofNat 32 (2 * q.val + 1) := by
  simp only [val_main_v62_apply, val_main_v61_apply, val_main_v58_apply, val_main_v60_apply, val_main_v9_apply,
    val_main_v8_apply, val_main_c_2_apply, val_main_v7_apply, val_main_v6_apply, val_main_c_1_apply, val_main_v5_apply,
    val_main_v57_apply, val_main_c_14_apply, val_main_v59_apply, val_main_c_15_apply]
  exact word_odd q

/-! ## The two gathers -/

/-- The identity half: entry (p, q) is the input at row p and column 2 q. -/
theorem v16_apply (x0 : (⟨S32768x1024, .f32⟩ : BufTy).Contents (Elt F)) (p : Fin 32768) (q : Fin 512) :
    val_main_v16 (F := F) x0 (ix2 p q) = x0 (ix2 p (evenCol q)) := by
  unfold val_main_v16
  refine (Cert.Gathers.gather_cols_apply (R := 32768) (C := 1024) (N := 512) (by decide)
    gather_S32768x1024_S512x1_S32768x512_0_1_n_n_1_1_327681_wf x0 (val_main_v15 (F := F)) p q).trans ?_
  refine congrArg x0 (congrArg (ix2 p) (Fin.ext ?_))
  show min (val_main_v15 (F := F) (ix2 q 0)).toInt.toNat (1024 - 1) = 2 * q.val
  rw [v15_word, toInt_even, Int.toNat_natCast]
  have := q.isLt
  omega

/-- The transformed half: entry (p, q) is the input at row p and column 2 q + 1. -/
theorem v23_apply (x0 : (⟨S32768x1024, .f32⟩ : BufTy).Contents (Elt F)) (p : Fin 32768) (q : Fin 512) :
    val_main_v23 (F := F) x0 (ix2 p q) = x0 (ix2 p (oddCol q)) := by
  unfold val_main_v23
  refine (Cert.Gathers.gather_cols_apply (R := 32768) (C := 1024) (N := 512) (by decide)
    gather_S32768x1024_S512x1_S32768x512_0_1_n_n_1_1_327681_wf x0 (val_main_v22 (F := F)) p q).trans ?_
  refine congrArg x0 (congrArg (ix2 p) (Fin.ext ?_))
  show min (val_main_v22 (F := F) (ix2 q 0)).toInt.toNat (1024 - 1) = 2 * q.val + 1
  rw [v22_word, toInt_odd, Int.toNat_natCast]
  have := q.isLt
  omega

/-! ## The two scatters -/

/-- The first scatter at an even column: the input there. -/
theorem v56_even (x0 : (⟨S32768x1024, .f32⟩ : BufTy).Contents (Elt F)) (r : Fin 32768) (q : Fin 512) :
    val_main_v56 (F := F) x0 (ix2 r (evenCol q)) = x0 (ix2 r (evenCol q)) := by
  unfold val_main_v56
  refine (Cert.ScatterCols.scatter_cols_set_hit (R := 32768) (C := 1024) (N := 512)
    scatter_S32768x1024_S512x1_S32768x512_0_1_1_1_wf (val_main_v55 (F := F)) (val_main_v49 (F := F))
    (val_main_v16 (F := F) x0) r (evenCol q) q ?_ ?_).trans (v16_apply x0 r q)
  · rw [v55_word, toInt_even]
  · intro q' h
    rw [v55_word, toInt_even] at h
    refine Fin.ext ?_
    have h' : ((2 * q'.val : ℕ) : Int) = ((2 * q.val : ℕ) : Int) := h
    omega

/-- The first scatter at an odd column: the zero literal, the operand's element. -/
theorem v56_odd (x0 : (⟨S32768x1024, .f32⟩ : BufTy).Contents (Elt F)) (r : Fin 32768) (q : Fin 512) :
    val_main_v56 (F := F) x0 (ix2 r (oddCol q)) = FloatOps.ofBits .f32 0x00000000#32 := by
  unfold val_main_v56
  refine (Cert.ScatterCols.scatter_cols_set_miss (R := 32768) (C := 1024) (N := 512)
    scatter_S32768x1024_S512x1_S32768x512_0_1_1_1_wf (val_main_v55 (F := F)) (val_main_v49 (F := F))
    (val_main_v16 (F := F) x0) r (oddCol q) ?_).trans ?_
  · intro q' h
    rw [v55_word, toInt_even] at h
    have h' : ((2 * q'.val : ℕ) : Int) = ((2 * q.val + 1 : ℕ) : Int) := h
    omega
  · rw [val_main_v49_apply, val_main_cst_11_apply]

/-- The second scatter at an even column: the first scatter there, so the input. -/
theorem v63_even (x0 : (⟨S32768x1024, .f32⟩ : BufTy).Contents (Elt F)) (x1 : (⟨S512x512, .f32⟩ : BufTy).Contents (Elt F))
    (x2 : (⟨S512, .f32⟩ : BufTy).Contents (Elt F)) (x3 : (⟨S512x1024, .f32⟩ : BufTy).Contents (Elt F))
    (x4 : (⟨S1024, .f32⟩ : BufTy).Contents (Elt F)) (r : Fin 32768) (q : Fin 512) :
    val_main_v63 (F := F) x0 x1 x2 x3 x4 (ix2 r (evenCol q)) = x0 (ix2 r (evenCol q)) := by
  unfold val_main_v63
  refine (Cert.ScatterCols.scatter_cols_set_miss (R := 32768) (C := 1024) (N := 512)
    scatter_S32768x1024_S512x1_S32768x512_0_1_1_1_wf (val_main_v62 (F := F)) (val_main_v56 (F := F) x0)
    (val_main_v46 (F := F) x0 x1 x2 x3 x4) r (evenCol q) ?_).trans (v56_even x0 r q)
  intro q' h
  rw [v62_word, toInt_odd] at h
  have h' : ((2 * q'.val + 1 : ℕ) : Int) = ((2 * q.val : ℕ) : Int) := h
  omega

/-- The second scatter at an odd column 2 q + 1: the transformed result at (r, q). -/
theorem v63_odd (x0 : (⟨S32768x1024, .f32⟩ : BufTy).Contents (Elt F)) (x1 : (⟨S512x512, .f32⟩ : BufTy).Contents (Elt F))
    (x2 : (⟨S512, .f32⟩ : BufTy).Contents (Elt F)) (x3 : (⟨S512x1024, .f32⟩ : BufTy).Contents (Elt F))
    (x4 : (⟨S1024, .f32⟩ : BufTy).Contents (Elt F)) (r : Fin 32768) (q : Fin 512) :
    val_main_v63 (F := F) x0 x1 x2 x3 x4 (ix2 r (oddCol q)) = val_main_v46 (F := F) x0 x1 x2 x3 x4 (ix2 r q) := by
  unfold val_main_v63
  refine Cert.ScatterCols.scatter_cols_set_hit (R := 32768) (C := 1024) (N := 512)
    scatter_S32768x1024_S512x1_S32768x512_0_1_1_1_wf (val_main_v62 (F := F)) (val_main_v56 (F := F) x0)
    (val_main_v46 (F := F) x0 x1 x2 x3 x4) r (oddCol q) q ?_ ?_
  · rw [v62_word, toInt_odd]
  · intro q' h
    rw [v62_word, toInt_odd] at h
    refine Fin.ext ?_
    have h' : ((2 * q'.val + 1 : ℕ) : Int) = ((2 * q.val + 1 : ℕ) : Int) := h
    omega

/-- A column is the even column or the odd column of its half, by its parity. -/
theorem col_even (c : Fin 1024) (h : c.val % 2 = 0) : c = evenCol (halfCol c) :=
  Fin.ext (by show c.val = 2 * (c.val / 2); omega)
theorem col_odd (c : Fin 1024) (h : ¬ c.val % 2 = 0) : c = oddCol (halfCol c) :=
  Fin.ext (by show c.val = 2 * (c.val / 2) + 1; omega)

end Cert.Coupling.Ref

end
-- ==== Proof.RefValue.lean ====
/-
  THE REFERENCE PROGRAM'S TWO RESULTS ARE THE COUPLING LAYER OF THE SPECIFICATION.

  Stage by stage, at the extended reals: the first product of the identity half with the first weight matrix, the bias
  and the rectification are the hidden layer of a row; the second product and bias are its 1024 parameters; the
  reference writes the logistic as  1 / (1 + exp (-(p + 2)))  with the literal one, which is the logistic of the
  specification by definition; the product with the transformed half plus the shift parameters is the transformed
  output, and the sum of the logarithms of the scales, started from the zero literal, is the log-determinant. The two
  scatters then interleave the input's even columns with the transformed output.
-/
import proofs.«112335_j91319594647687_1_alg».proof.Proof.RefIndex
import Idealize.ShloMosaic.Lib.IdealHost

noncomputable section

namespace Cert.Coupling.Ref

open Cert.ReferenceIdeal Cert.ReferenceIdeal.Gen Cert.ReferenceIdeal.Read Idealize.ShloMosaic
  Idealize.ShloMosaic.ValueIdx Cert.Coupling

/-- The hidden layer: entry (r, k) of the rectified first affine map is the hidden layer of row r at k. -/
theorem v28_eq (x0 : (⟨S32768x1024, .f32⟩ : BufTy).Contents (Elt Ideal)) (x1 : (⟨S512x512, .f32⟩ : BufTy).Contents (Elt Ideal))
    (x2 : (⟨S512, .f32⟩ : BufTy).Contents (Elt Ideal)) (r : Fin 32768) (k : Fin 512) :
    val_main_v28 (F := Ideal) x0 x1 x2 (ix2 r k) = hiddenRow x1 x2 (idRow x0 r) k := by
  rw [val_main_v28_apply, val_main_v27_apply, val_main_v24_apply, val_main_v26_apply, val_main_v25_apply,
    val_main_call0_v0_apply, val_main_call0_cst_apply]
  unfold hiddenRow idRow
  simp only [Ideal.maximumf_def, Ideal.addf_def, Ideal.ofBits_def]
  have es : (∑ l : Fin 512, val_main_v16 (F := Ideal) x0 (lidx_main_v24 (ix2 r k) l) * x1 (ridx_main_v24 (ix2 r k) l))
      = ∑ l : Fin 512, x0 (ix2 r (evenCol l)) * x1 (ix2 l k) := by
    refine Finset.sum_congr rfl fun l _ => ?_
    have e1 : lidx_main_v24 (ix2 r k) l = ix2 r l :=
      funext fun a => Fin.ext (by match a with | ⟨0, _⟩ => rfl | ⟨1, _⟩ => rfl)
    have e2 : ridx_main_v24 (ix2 r k) l = ix2 l k :=
      funext fun a => Fin.ext (by match a with | ⟨0, _⟩ => rfl | ⟨1, _⟩ => rfl)
    rw [e1, e2, v16_apply]
  have eb : idx_main_v25 (idx_main_v26 (ix2 r k)) = ix1 k :=
    funext fun a => Fin.ext (by match a with | ⟨0, _⟩ => rfl)
  rw [es, eb]

/-- The parameters: entry (r, n) of the second affine map is parameter n of row r. -/
theorem v32_eq (x0 : (⟨S32768x1024, .f32⟩ : BufTy).Contents (Elt Ideal)) (x1 : (⟨S512x512, .f32⟩ : BufTy).Contents (Elt Ideal))
    (x2 : (⟨S512, .f32⟩ : BufTy).Contents (Elt Ideal)) (x3 : (⟨S512x1024, .f32⟩ : BufTy).Contents (Elt Ideal))
    (x4 : (⟨S1024, .f32⟩ : BufTy).Contents (Elt Ideal)) (r : Fin 32768) (n : Fin 1024) :
    val_main_v32 (F := Ideal) x0 x1 x2 x3 x4 (ix2 r n) = paramsRow x1 x2 x3 x4 (idRow x0 r) n := by
  rw [val_main_v32_apply, val_main_v29_apply, val_main_v31_apply, val_main_v30_apply]
  unfold paramsRow
  simp only [Ideal.addf_def]
  have es : (∑ k : Fin 512, val_main_v28 (F := Ideal) x0 x1 x2 (lidx_main_v29 (ix2 r n) k) * x3 (ridx_main_v29 (ix2 r n) k))
      = ∑ k : Fin 512, hiddenRow x1 x2 (idRow x0 r) k * x3 (ix2 k n) := by
    refine Finset.sum_congr rfl fun k _ => ?_
    have e1 : lidx_main_v29 (ix2 r n) k = ix2 r k :=
      funext fun a => Fin.ext (by match a with | ⟨0, _⟩ => rfl | ⟨1, _⟩ => rfl)
    have e2 : ridx_main_v29 (ix2 r n) k = ix2 k n :=
      funext fun a => Fin.ext (by match a with | ⟨0, _⟩ => rfl | ⟨1, _⟩ => rfl)
    rw [e1, e2, v28_eq]
  have eb : idx_main_v30 (idx_main_v31 (ix2 r n)) = ix1 n :=
    funext fun a => Fin.ext (by match a with | ⟨0, _⟩ => rfl)
  rw [es, eb]

/-- The scale: the reference's  1 / (1 + exp (-(p + 2))) + eps  is the scale of the specification. -/
theorem v44_eq (x0 : (⟨S32768x1024, .f32⟩ : BufTy).Contents (Elt Ideal)) (x1 : (⟨S512x512, .f32⟩ : BufTy).Contents (Elt Ideal))
    (x2 : (⟨S512, .f32⟩ : BufTy).Contents (Elt Ideal)) (x3 : (⟨S512x1024, .f32⟩ : BufTy).Contents (Elt Ideal))
    (x4 : (⟨S1024, .f32⟩ : BufTy).Contents (Elt Ideal)) (r : Fin 32768) (j : Fin 512) :
    val_main_v44 (F := Ideal) x0 x1 x2 x3 x4 (ix2 r j) = scaleRow x1 x2 x3 x4 (idRow x0 r) j := by
  rw [val_main_v44_apply, val_main_v42_apply, val_main_v43_apply, val_main_cst_9_apply, val_main_v41_apply,
    val_main_cst_8_apply, val_main_v40_apply, val_main_v39_apply, val_main_cst_7_apply, val_main_v38_apply,
    val_main_v37_apply, val_main_v36_apply, val_main_v35_apply, val_main_cst_apply, val_main_v33_apply]
  have e : idx_main_v33 (ix2 r j) = ix2 r (loCol j) :=
    funext fun a => Fin.ext (by match a with | ⟨0, _⟩ => rfl | ⟨1, _⟩ => rfl)
  rw [e, v32_eq]
  unfold scaleRow Ideal.logistic
  simp only [Ideal.addf_def, Ideal.hostDivf_def, Ideal.hostUnary_exp_def, Ideal.hostNegf_def, Ideal.negf_def,
    Ideal.ofBits_def, Ideal.ofBits_one_f32]

/-- The transformed output: entry (r, j) is transformed feature j of row r. -/
theorem v46_eq (x0 : (⟨S32768x1024, .f32⟩ : BufTy).Contents (Elt Ideal)) (x1 : (⟨S512x512, .f32⟩ : BufTy).Contents (Elt Ideal))
    (x2 : (⟨S512, .f32⟩ : BufTy).Contents (Elt Ideal)) (x3 : (⟨S512x1024, .f32⟩ : BufTy).Contents (Elt Ideal))
    (x4 : (⟨S1024, .f32⟩ : BufTy).Contents (Elt Ideal)) (r : Fin 32768) (j : Fin 512) :
    val_main_v46 (F := Ideal) x0 x1 x2 x3 x4 (ix2 r j)
      = outTrRow x1 x2 x3 x4 (idRow x0 r) (trRow x0 r) j := by
  rw [val_main_v46_apply, val_main_v45_apply, val_main_v34_apply, v23_apply, v44_eq]
  have e : idx_main_v34 (ix2 r j) = ix2 r (hiCol j) :=
    funext fun a => Fin.ext (by match a with | ⟨0, _⟩ => rfl | ⟨1, _⟩ => rfl)
  rw [e, v32_eq]
  rfl

/-- THE FIRST RESULT of the reference is the specification's. -/
theorem ref_out (x0 : (⟨S32768x1024, .f32⟩ : BufTy).Contents (Elt Ideal)) (x1 : (⟨S512x512, .f32⟩ : BufTy).Contents (Elt Ideal))
    (x2 : (⟨S512, .f32⟩ : BufTy).Contents (Elt Ideal)) (x3 : (⟨S512x1024, .f32⟩ : BufTy).Contents (Elt Ideal))
    (x4 : (⟨S1024, .f32⟩ : BufTy).Contents (Elt Ideal)) :
    Cert.ReferenceIdeal.Read.val_main_v63 (F := Ideal) x0 x1 x2 x3 x4 = Cert.Coupling.out x1 x2 x3 x4 x0 := by
  funext i
  obtain ⟨r, c, rfl⟩ : ∃ (r : Fin 32768) (c : Fin 1024), i = ix2 r c := ⟨i 0, i 1, eq_ix2 i⟩
  unfold Cert.Coupling.out
  by_cases hc : c.val % 2 = 0
  · rw [if_pos (show ((ix2 r c) 1).val % 2 = 0 from hc)]
    have ec := col_even c hc
    generalize halfCol c = q at ec
    subst ec
    exact v63_even x0 x1 x2 x3 x4 r q
  · rw [if_neg (show ¬ ((ix2 r c) 1).val % 2 = 0 from hc)]
    show _ = outTrRow x1 x2 x3 x4 (idRow x0 r) (trRow x0 r) (halfCol c)
    have ec := col_odd c hc
    generalize halfCol c = q at ec ⊢
    subst ec
    rw [v63_odd, v46_eq]

/-- THE SECOND RESULT of the reference is the specification's. -/
theorem ref_lad (x0 : (⟨S32768x1024, .f32⟩ : BufTy).Contents (Elt Ideal)) (x1 : (⟨S512x512, .f32⟩ : BufTy).Contents (Elt Ideal))
    (x2 : (⟨S512, .f32⟩ : BufTy).Contents (Elt Ideal)) (x3 : (⟨S512x1024, .f32⟩ : BufTy).Contents (Elt Ideal))
    (x4 : (⟨S1024, .f32⟩ : BufTy).Contents (Elt Ideal)) :
    Cert.ReferenceIdeal.Read.val_main_v48 (F := Ideal) x0 x1 x2 x3 x4 = Cert.Coupling.lad x1 x2 x3 x4 x0 := by
  funext i
  obtain ⟨r, rfl⟩ : ∃ r : Fin 32768, i = ix1 r := ⟨i 0, eq_ix1 i⟩
  rw [val_main_v48_apply, val_main_cst_10_apply]
  show _ = ladRow x1 x2 x3 x4 (idRow x0 r)
  unfold ladRow
  simp only [Ideal.ofBits_def, Ideal.ofBits_zero_f32, zero_add]
  refine Finset.sum_congr rfl fun k _ => ?_
  rw [val_main_v47_apply, Ideal.hostUnary_log_def]
  have e : idx_main_v48 (ix1 r) k = ix2 r k :=
    funext fun a => Fin.ext (by match a with | ⟨0, _⟩ => rfl | ⟨1, _⟩ => rfl)
  rw [e, v44_eq]

end Cert.Coupling.Ref

end
-- ==== Proof.lean ====
/-
  An affine coupling layer with an alternating mask: the kernel against its jnp reference, over the extended reals.

  Both programs split a row of 1024 features into its even features (kept) and its odd features (transformed), run the
  same two-layer network on the kept half — hidden = max (id · W1 + b1, 0), parameters = hidden · W2 + b2 —, take
  scale = logistic (parameter + 2) + eps from the first 512 parameters and the shift from the last 512, return the row with
  every odd feature replaced by feature * scale + shift, and return the sum of log scale over the row.

  They differ only in spelling. The kernel splits by a reshape to [.., 512, 2] and slices, the reference by two gathers at
  the index tables 2 j and 2 j + 1; the kernel multiplies bf16 copies block by block into a zero accumulator, the reference
  multiplies whole matrices — on the extended reals a change of format is the identity and each product entry is the plain
  sum over the contraction index; the kernel's logistic is one operation, the reference spells 1 / (1 + exp (-x)), which is
  that operation's definition; the kernel sums log scale over the lanes from nothing, the reference from a zero; the kernel
  interleaves the two halves again by a concatenation and a reshape, the reference by two overwriting scatters into zeros at
  the same two index tables, whose images 2 j and 2 j + 1 are disjoint and cover every feature. Every float literal is the
  same bit pattern on both sides. No algebraic law beyond 0 + s = s and the definition of the logistic joins them, so the
  finiteness of the inputs is never used.

  The specification (Proof/Spec.lean) states the two results as functions of the five arguments, row by row. The kernel's
  run reaches them through its generated frame: the blocks the 32 grid points write back are blocks of one whole-array
  function (Proof/KernelRows.lean, Proof/KernelArrays.lean), read through the host operations before and after the region
  (Proof/KernelEntry.lean, Proof/KernelTail.lean, Proof/KernelValue.lean). The reference's generated run reaches them stage
  by stage (Proof/RefIndex.lean, Proof/RefValue.lean, over the gather and scatter lemmas of the Lib files).
-/
import proofs.«112335_j91319594647687_1_alg».proof.Defs
import proofs.«112335_j91319594647687_1_alg».proof.Proof.Gen.Kernel
import proofs.«112335_j91319594647687_1_alg».proof.Proof.Gen.Kernel.Skeleton
import proofs.«112335_j91319594647687_1_alg».proof.Proof.Gen.Kernel.Launch
import proofs.«112335_j91319594647687_1_alg».proof.Proof.Gen.Kernel.Points
import proofs.«112335_j91319594647687_1_alg».proof.Proof.Gen.Kernel.Frame
import proofs.«112335_j91319594647687_1_alg».proof.Proof.Gen.KernelIdeal
import proofs.«112335_j91319594647687_1_alg».proof.Proof.Gen.KernelIdeal.Skeleton
import proofs.«112335_j91319594647687_1_alg».proof.Proof.Gen.KernelIdeal.Launch
import proofs.«112335_j91319594647687_1_alg».proof.Proof.Gen.KernelIdeal.Points
import proofs.«112335_j91319594647687_1_alg».proof.Proof.Gen.KernelIdeal.Frame
import proofs.«112335_j91319594647687_1_alg».proof.Proof.Gen.ReferenceIdeal
import proofs.«112335_j91319594647687_1_alg».proof.Proof.Gen.Pre_finite_inputs
import proofs.«112335_j91319594647687_1_alg».proof.Proof.Gen.ReferenceIdeal.Run
import proofs.«112335_j91319594647687_1_alg».proof.Proof.Gen.ReferenceIdeal.Read
import proofs.«112335_j91319594647687_1_alg».proof.Proof.KernelValue
import proofs.«112335_j91319594647687_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the specification's two functions of the arguments they agree on. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v63_eq, Cert.Coupling.Ref.ref_out, (hagree c).1, (hagree c).2.1,
      (hagree c).2.2.1, (hagree c).2.2.2.1, (hagree c).2.2.2.2]
  · rw [(h c).2.1, Cert.ReferenceIdeal.Read.val_main_v48_eq, Cert.Coupling.Ref.ref_lad, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
